-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x64 .f32) (main_arg1 : FVec F S8192x64 .f32) (main_arg2 : FVec F S8192x8192 .f32) (main_arg3 : FVec F S_ .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x64 : Shape := ⟨2, ![8192, 64]⟩
abbrev S8192x8192 : Shape := ⟨2, ![8192, 8192]⟩
abbrev S_ : Shape := ⟨0, ![]⟩
abbrev S1x1 : Shape := ⟨2, ![1, 1]⟩
abbrev S64x64 : Shape := ⟨2, ![64, 64]⟩
abbrev S1024x2048 : Shape := ⟨2, ![1024, 2048]⟩
abbrev S2048x64 : Shape := ⟨2, ![2048, 64]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1 : Shape := ⟨1, ![1]⟩

abbrev nBuf : Space → Nat
  | .hbm => 12
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S_, .f32⟩
  | .hbm, ⟨4, _⟩ => ⟨S1x1, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1x1, .f32⟩
  | .local _ .vmem, ⟨9, _⟩ => ⟨S64x64, .f32⟩
  | .local _ .vmem, ⟨10, _⟩ => ⟨S1024x64, .f32⟩
  | .local _ .vmem, ⟨11, _⟩ => ⟨S1x1, .f32⟩
  | .local _ .vmem, ⟨12, _⟩ => ⟨S64x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg0 : BitVec 32 := BitVec.ofNat 32 (i 0).val
  let c7_i32 : BitVec 32 := 7#32
  let v21 : BitVec 1 := Scalar.cmpi .eq arg0 c7_i32
  let arg1 : BitVec 32 := BitVec.ofNat 32 (i 1).val
  let c3_i32_12 : BitVec 32 := 3#32
  let v22 : BitVec 1 := Scalar.cmpi .eq arg1 c3_i32_12
  let v23 : BitVec 1 := Scalar.andi v21 v22
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  transposes_S1024x64_p1_0_S64x1024 : S1024x64.Transposes [1, 0] S64x1024
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  reducesTo_S64x64_S_d0_1 : S64x64.ReducesTo [0, 1] S_
  h_S_ : 0 < S_.numel
  dot_S64x1024_S1024x64_S64x64_1_0_0_1_n_n_wf : DotDims.WF S64x1024 S1024x64 S64x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)

variable [Facts₀]

def dot_S64x1024_S1024x64_S64x64_1_0_0_1_n_n : DotDims S64x1024 S1024x64 S64x64 where
  lhsContracting := [1]
  rhsContracting := [0]
  lhsNonContracting := [0]
  rhsNonContracting := [1]
  lhsBatch := []
  rhsBatch := []
  wf := dot_S64x1024_S1024x64_S64x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S64x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S64x64 : Shape := ⟨2, ![64, 64]⟩

abbrev nBuf : Space → Nat
  | .hbm => 14
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S_, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S8192x64_S_d0_1 : S8192x64.ReducesTo [0, 1] S_
  h_S_ : 0 < S_.numel
  reducesTo_S64x64_S_d0_1 : S64x64.ReducesTo [0, 1] S_
  dot_S8192x8192_S8192x64_S8192x64_1_0_0_1_n_n_wf : DotDims.WF S8192x8192 S8192x64 S8192x64 [1] [0] [0] [1] [] []
  dot_S8192x64_S8192x64_S64x64_0_0_1_1_n_n_wf : DotDims.WF S8192x64 S8192x64 S64x64 [0] [0] [1] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

class Facts : Prop extends Facts₀ where

variable [Facts]
-- ==== Proof.K.Runs.lean ====
/- What the five control cases of the loss kernel's body share: the contents of the core's buffers when the
   region is entered, each input window's block at a grid point, the four branch conditions of the body in
   closed form over the 8 × 4 grid, where the two result windows are idle, and names for the staging and
   scratch memrefs the body is called with. -/
import proofs.«110513_j575525618299_1_alg».proof.Proof.Gen.Kernel.Launch
import proofs.«110513_j575525618299_1_alg».proof.Proof.Gen.Kernel.Skeleton
import proofs.«110513_j575525618299_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry: no host operation precedes it -/

/-- Core `c`'s buffer contents when the region is entered: the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region followed by the six host operations that fold the two results into the scalar loss. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. Window 0 is the
    1024 × 2048 tile (i, k) of Θ, window 1 the rows 2048 k … of F_ll, windows 2 and 3 the rows 1024 i … of
    F_ll and of F_ul. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's four branch conditions, in closed form over the grid (point t = 4 i + k) -/

/-- First branch: i = 0 and k = 0 (the running sum and the Gram matrix are reset). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- Second branch: k = 0 (the row accumulator is reset, the Gram matrix takes this row tile's term). -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- Third branch: k = 3 (the row tile's contribution is added to the running sum). -/
abbrev cond0_2 (i : grid0.Coords) : Prop := (Scalar.cmpi .ne (Scalar.extui (Scalar.cmpi .eq (BitVec.ofNat 32 (i 1).val) 3#32)) 0#32) = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- Fourth branch: i = 7 and k = 3, the last point (both results are written out). -/
abbrev cond0_3 (i : grid0.Coords) : Prop := k0_cond4 i = 1#1
theorem hcond0_3 : ∀ t : Fin cfg0.N, cond0_3 (grid0.coords t) ↔ t.val % 32 = 31 :=
  (by decide +kernel : ∀ t : Fin grid0.N, cond0_3 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the two result windows are idle and are not written back. -/
theorem idleAt0_4 : ∀ t : Fin cfg0.N, ¬cond0_3 (grid0.coords t) → cfg0.idle 4 (grid0.coords t) = true := by decide +kernel
theorem noFlush0_4 : ∀ t : Fin cfg0.N, ¬cond0_3 (grid0.coords t) → (cfg0.win 4).flush t = false := by decide +kernel
theorem idleAt0_5 : ∀ t : Fin cfg0.N, ¬cond0_3 (grid0.coords t) → cfg0.idle 5 (grid0.coords t) = true := by decide +kernel
theorem noFlush0_5 : ∀ t : Fin cfg0.N, ¬cond0_3 (grid0.coords t) → (cfg0.win 5).flush t = false := by decide +kernel
/-- At the last point they are live. -/
theorem liveAt0_4 : ∀ t : Fin cfg0.N, cond0_3 (grid0.coords t) → cfg0.idle 4 (grid0.coords t) = false := by decide +kernel
theorem liveAt0_5 : ∀ t : Fin cfg0.N, cond0_3 (grid0.coords t) → cfg0.idle 5 (grid0.coords t) = false := by decide +kernel

/-! ## The memrefs the body is called with -/

abbrev VO0_4 : View sig .tc .vmem S1x1 .f32 := (Memref.whole cc0_stg4_0 : Memref sig .tc .vmem S1x1 .f32).view
abbrev VO0_5 : View sig .tc .vmem S64x64 .f32 := (Memref.whole cc0_stg5_0 : Memref sig .tc .vmem S64x64 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
/-- The three scratch operands: the 1024 × 64 row accumulator, the 1 × 1 running sum, the 64 × 64 Gram matrix. -/
abbrev scM0_0 : Memref sig .tc .vmem S1024x64 .f32 := Memref.whole cc0_scratch0
abbrev scM0_1 : Memref sig .tc .vmem S1x1 .f32 := Memref.whole cc0_scratch1
abbrev scM0_2 : Memref sig .tc .vmem S64x64 .f32 := Memref.whole cc0_scratch2
abbrev VS0_0 : View sig .tc .vmem S1024x64 .f32 := scM0_0.view
abbrev VS0_1 : View sig .tc .vmem S1x1 .f32 := scM0_1.view
abbrev VS0_2 : View sig .tc .vmem S64x64 .f32 := scM0_2.view

/-- The scoped rest of the core is the three scratch operands, each owned at some contents; with the generator
    register at some state this is what the region hands the body before the first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
/- The body at the first point (i = 0, k = 0): the running sum and the Gram matrix are reset, then the row accumulator; the Gram matrix takes the first row tile's term F_ul(0)ᵀ · F_ll(0) and the accumulator the first tile product. -/
import proofs.«110513_j575525618299_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i)
    (x0 : Vec F S1024x2048 .f32) (x1 : Vec F S2048x64 .f32) (x2 : Vec F S1024x64 .f32) (x3 : Vec F S1024x64 .f32)  :
    Σ' (LS0 : List (View.Piece (Elt F) S1024x64 .f32)), Σ' (LS1 : List (View.Piece (Elt F) S1x1 .f32)), { LS2 : List (View.Piece (Elt F) S64x64 .f32) //
      ∀ (xi4 : Vec F S1x1 .f32) (xi5 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%ds0, %fs0, -, Hs0⟩, ⟨%ds1, %fs1, -, Hs1⟩, ⟨%ds2, %fs2, -, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]; · iexists _; iexact Hs1
    iexists _; iexact Hs2

end Cert.Kernel.Hand

end
-- ==== Proof.K.RunB.lean ====
/- The body at the points with k = 0 and i > 0: the row accumulator is reset and takes the first tile product, the Gram matrix takes row tile i's term F_ul(i)ᵀ · F_ll(i). -/
import proofs.«110513_j575525618299_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : cond0_1 i) (hc2 : ¬cond0_2 i) (hc3 : ¬cond0_3 i)
    (x0 : Vec F S1024x2048 .f32) (x1 : Vec F S2048x64 .f32) (x2 : Vec F S1024x64 .f32) (x3 : Vec F S1024x64 .f32) (xs2 : Vec F S64x64 .f32) :
    Σ' (LS0 : List (View.Piece (Elt F) S1024x64 .f32)), { LS2 : List (View.Piece (Elt F) S64x64 .f32) //
      ∀ (xi4 : Vec F S1x1 .f32) (xi5 : Vec F S64x64 .f32) (xs1 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ owns (c : Thread nD τ) arg9 fullShare xs1 ∗ (∃ f, arg10.view.loc (c : Thread nD τ) ↦[arg10.view.set]{fullShare} arg10.view.writes (Elt F) f LS2)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, fun xi4 xi5 xs1 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%ds0, %fs0, -, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]
    · iexists _; isplitr; · ipureintro; exact harg9.read_unread _
      iexact Hs1
    iexists _; iexact Hs2

end Cert.Kernel.Hand

end
-- ==== Proof.K.RunC.lean ====
/- The body at the points with 0 < k < 3: the tile product Θ(i,k) · F_ll(k) is added to the row accumulator. -/
import proofs.«110513_j575525618299_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : ¬cond0_2 i) (hc3 : ¬cond0_3 i)
    (x0 : Vec F S1024x2048 .f32) (x1 : Vec F S2048x64 .f32) (x2 : Vec F S1024x64 .f32) (x3 : Vec F S1024x64 .f32) (xs0 : Vec F S1024x64 .f32) :
    { LS0 : List (View.Piece (Elt F) S1024x64 .f32) //
      ∀ (xi4 : Vec F S1x1 .f32) (xi5 : Vec F S64x64 .f32) (xs1 : Vec F S1x1 .f32) (xs2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ owns (c : Thread nD τ) arg9 fullShare xs1 ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, fun xi4 xi5 xs1 xs2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%fs0, %hfs0, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5; obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]
    · iexists _; isplitr; · ipureintro; exact harg9.read_unread _
      iexact Hs1
    iexists _; isplitr; · ipureintro; exact harg10.read_unread _
    iexact Hs2

end Cert.Kernel.Hand

end
-- ==== Proof.K.RunD.lean ====
/- The body at the points with k = 3 and i < 7: the last tile product is added to the row accumulator and the sum of its entrywise product with F_ll(i) to the running sum. -/
import proofs.«110513_j575525618299_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_D (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : ¬cond0_3 i)
    (x0 : Vec F S1024x2048 .f32) (x1 : Vec F S2048x64 .f32) (x2 : Vec F S1024x64 .f32) (x3 : Vec F S1024x64 .f32) (xs0 : Vec F S1024x64 .f32) (xs1 : Vec F S1x1 .f32) :
    Σ' (LS0 : List (View.Piece (Elt F) S1024x64 .f32)), { LS1 : List (View.Piece (Elt F) S1x1 .f32) //
      ∀ (xi4 : Vec F S1x1 .f32) (xi5 : Vec F S64x64 .f32) (xs2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, fun xi4 xi5 xs2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%fs0, %hfs0, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5; obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]; · iexists _; iexact Hs1
    iexists _; isplitr; · ipureintro; exact harg10.read_unread _
    iexact Hs2

end Cert.Kernel.Hand

end
-- ==== Proof.K.RunE.lean ====
/- The body at the last point (i = 7, k = 3): as for k = 3, and then the running sum and the Gram matrix are stored into the two result windows. -/
import proofs.«110513_j575525618299_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_E (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i)
    (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) :
    Σ' (L4 : List (View.Piece (Elt F) S1x1 .f32)), Σ' (L5 : List (View.Piece (Elt F) S64x64 .f32)), Σ' (LS0 : List (View.Piece (Elt F) S1024x64 .f32)), { LS1 : List (View.Piece (Elt F) S1x1 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, ?_, ?_, fun  E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%do4, %fo4, -, Ho4⟩, ⟨%do5, %fo5, -, Ho5⟩, ⟨%fs0, %hfs0, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]; · iexists _; iexact Ho4
    isplitl [Ho5]; · iexists _; iexact Ho5
    isplitl [Hs0]; · iexists _; iexact Hs0
    isplitl [Hs1]; · iexists _; iexact Hs1
    iexists _; isplitr; · ipureintro; exact harg10.read_unread _
    iexact Hs2

end Cert.Kernel.Hand

end
-- ==== Proof.K.Frame.lean ====
/- The loss kernel on its 8 × 4 grid, point by point: what the three scratch operands (the row accumulator, the
   running sum, the Gram matrix) and the two result windows hold after each point, the proof data of the pipeline over
   them, and the body obligation at every point by the five control cases. -/
import proofs.«110513_j575525618299_1_alg».proof.Proof.K.RunA
import proofs.«110513_j575525618299_1_alg».proof.Proof.K.RunB
import proofs.«110513_j575525618299_1_alg».proof.Proof.K.RunC
import proofs.«110513_j575525618299_1_alg».proof.Proof.K.RunD
import proofs.«110513_j575525618299_1_alg».proof.Proof.K.RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stored pieces cover the buffer they are stored into -/

theorem coverA_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32)  (y : S1024x64.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 ).1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 ).1 S1024x64.size (by sl_kernel_rfl) y
theorem coverA_s1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32)  (y : S1x1.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 ).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 ).2.1 S1x1.size (by sl_kernel_rfl) y
theorem coverA_s2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32)  (y : S64x64.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 ).2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 ).2.2.1 S64x64.size (by sl_kernel_rfl) y
theorem coverB_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32) (xs2 : Vec F S64x64 .f32) (y : S1024x64.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 xs2).1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 xs2).1 S1024x64.size (by sl_kernel_rfl) y
theorem coverB_s2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32) (xs2 : Vec F S64x64 .f32) (y : S64x64.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 xs2).2.1 S64x64.size (by sl_kernel_rfl) y
theorem coverC_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : ¬cond0_2 i) (hc3 : ¬cond0_3 i) (x0 : Vec F S1024x2048 .f32) (x1 : Vec F S2048x64 .f32) (x2 : Vec F S1024x64 .f32) (x3 : Vec F S1024x64 .f32) (xs0 : Vec F S1024x64 .f32) (y : S1024x64.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 xs0).1 S1024x64.size (by sl_kernel_rfl) y
theorem coverD_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : ¬cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (y : S1024x64.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 xs0 xs1).1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 xs0 xs1).1 S1024x64.size (by sl_kernel_rfl) y
theorem coverD_s1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : ¬cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (y : S1x1.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 xs0 xs1).2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 xs0 xs1).2.1 S1x1.size (by sl_kernel_rfl) y
theorem coverE_o4 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S1x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).1 S1x1.size (by sl_kernel_rfl) y
theorem coverE_o5 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S64x64.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.1 S64x64.size (by sl_kernel_rfl) y
theorem coverE_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S1024x64.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.1 S1024x64.size (by sl_kernel_rfl) y
theorem coverE_s1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S1x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.2.1 S1x1.size (by sl_kernel_rfl) y

/-! ## The case of a point from its number t = 4 i + k -/

theorem c0_of (t : Fin cfg0.N) (h : t.val % 32 = 0) : cond0_0 (grid0.coords t) := (hcond0_0 t).mpr h
theorem nc0_of (t : Fin cfg0.N) (h : t.val % 32 ≠ 0) : ¬cond0_0 (grid0.coords t) := fun hh => h ((hcond0_0 t).mp hh)
theorem c1_of (t : Fin cfg0.N) (h : t.val % 4 = 0) : cond0_1 (grid0.coords t) := (hcond0_1 t).mpr h
theorem nc1_of (t : Fin cfg0.N) (h : t.val % 4 ≠ 0) : ¬cond0_1 (grid0.coords t) := fun hh => h ((hcond0_1 t).mp hh)
theorem c2_of (t : Fin cfg0.N) (h : t.val % 4 = 3) : cond0_2 (grid0.coords t) := (hcond0_2 t).mpr h
theorem nc2_of (t : Fin cfg0.N) (h : t.val % 4 ≠ 3) : ¬cond0_2 (grid0.coords t) := fun hh => h ((hcond0_2 t).mp hh)
theorem c3_of (t : Fin cfg0.N) (h : t.val % 32 = 31) : cond0_3 (grid0.coords t) := (hcond0_3 t).mpr h
theorem nc3_of (t : Fin cfg0.N) (h : t.val % 32 ≠ 31) : ¬cond0_3 (grid0.coords t) := fun hh => h ((hcond0_3 t).mp hh)

/-! ## What the buffers hold after each point -/

/-- The contents after a point of the two result windows' staging buffers (`o4`: 1 × 1, `o5`: 64 × 64) and of the
    three scratch operands (`s0`: the 1024 × 64 row accumulator, `s1`: the 1 × 1 running sum, `s2`: the 64 × 64
    Gram matrix). Before the last point the result windows are idle and their components are not consulted. -/
structure St (F : FTy → Type) [FloatOps F] where
  o4 : Vec F S1x1 .f32
  o5 : Vec F S64x64 .f32
  s0 : Vec F S1024x64 .f32
  s1 : Vec F S1x1 .f32
  s2 : Vec F S64x64 .f32

/-- Case A's run at point `t`: on the point's staging memrefs and the three scratch operands, over the four input blocks. -/
abbrev rA (c : Dev nD) (t : Fin cfg0.N) (hA : t.val % 32 = 0)  :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (c0_of t hA) (c1_of t (by omega)) (nc2_of t (by omega)) (nc3_of t (by omega)) (iblk m c 0 t) (iblk m c 1 t) (iblk m c 2 t) (iblk m c 3 t)

/-- Case B's run at point `t`: on the point's staging memrefs and the three scratch operands, over the four input blocks. -/
abbrev rB (c : Dev nD) (t : Fin cfg0.N) (h1 : t.val % 4 = 0) (h0 : t.val % 32 ≠ 0) (xs2 : Vec F S64x64 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t h0) (c1_of t h1) (nc2_of t (by omega)) (nc3_of t (by omega)) (iblk m c 0 t) (iblk m c 1 t) (iblk m c 2 t) (iblk m c 3 t) xs2

/-- Case C's run at point `t`: on the point's staging memrefs and the three scratch operands, over the four input blocks. -/
abbrev rC (c : Dev nD) (t : Fin cfg0.N) (h1 : t.val % 4 ≠ 0) (h2 : t.val % 4 ≠ 3) (xs0 : Vec F S1024x64 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t (by omega)) (nc1_of t h1) (nc2_of t h2) (nc3_of t (by omega)) (iblk m c 0 t) (iblk m c 1 t) (iblk m c 2 t) (iblk m c 3 t) xs0

/-- Case D's run at point `t`: on the point's staging memrefs and the three scratch operands, over the four input blocks. -/
abbrev rD (c : Dev nD) (t : Fin cfg0.N) (h2 : t.val % 4 = 3) (h3 : t.val % 32 ≠ 31) (xs0 : Vec F S1024x64 .f32) (xs1 : Vec F S1x1 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t (by omega)) (nc1_of t (by omega)) (c2_of t h2) (nc3_of t h3) (iblk m c 0 t) (iblk m c 1 t) (iblk m c 2 t) (iblk m c 3 t) xs0 xs1

/-- Case E's run at point `t`: on the point's staging memrefs and the three scratch operands, over the four input blocks. -/
abbrev rE (c : Dev nD) (t : Fin cfg0.N) (hE : t.val % 32 = 31) (xs0 : Vec F S1024x64 .f32) (xs1 : Vec F S1x1 .f32) (xs2 : Vec F S64x64 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t (by omega)) (nc1_of t (by omega)) (c2_of t (by omega)) (c3_of t hE) (iblk m c 0 t) (iblk m c 1 t) (iblk m c 2 t) (iblk m c 3 t) xs0 xs1 xs2

/-- After the first point: every scratch operand was stored whole, so nothing of what they held before remains. -/
def stA (c : Dev nD) (t : Fin cfg0.N) (hA : t.val % 32 = 0) : St F where
  o4 := VS0_1.read (Elt F) (VS0_1.writes (Elt F) VS0_1.junk (rA m c t hA ).2.1)
  o5 := VS0_2.read (Elt F) (VS0_2.writes (Elt F) VS0_2.junk (rA m c t hA ).2.2.1)
  s0 := VS0_0.read (Elt F) (VS0_0.writes (Elt F) VS0_0.junk (rA m c t hA ).1)
  s1 := VS0_1.read (Elt F) (VS0_1.writes (Elt F) VS0_1.junk (rA m c t hA ).2.1)
  s2 := VS0_2.read (Elt F) (VS0_2.writes (Elt F) VS0_2.junk (rA m c t hA ).2.2.1)

/-- After a point with k = 0, i > 0, over the state `p` the point before left: the running sum is kept. -/
def stB (c : Dev nD) (t : Fin cfg0.N) (h1 : t.val % 4 = 0) (h0 : t.val % 32 ≠ 0) (p : St F) : St F where
  o4 := p.s1
  o5 := VS0_2.read (Elt F) (VS0_2.writes (Elt F) VS0_2.junk (rB m c t h1 h0 p.s2).2.1)
  s0 := VS0_0.read (Elt F) (VS0_0.writes (Elt F) VS0_0.junk (rB m c t h1 h0 p.s2).1)
  s1 := p.s1
  s2 := VS0_2.read (Elt F) (VS0_2.writes (Elt F) VS0_2.junk (rB m c t h1 h0 p.s2).2.1)

/-- After a point with 0 < k < 3: only the row accumulator moves. -/
def stC (c : Dev nD) (t : Fin cfg0.N) (h1 : t.val % 4 ≠ 0) (h2 : t.val % 4 ≠ 3) (p : St F) : St F where
  o4 := p.s1
  o5 := p.s2
  s0 := VS0_0.read (Elt F) (VS0_0.writes (Elt F) VS0_0.junk (rC m c t h1 h2 p.s0).1)
  s1 := p.s1
  s2 := p.s2

/-- After a point with k = 3, i < 7: the row accumulator and the running sum move, the Gram matrix is kept. -/
def stD (c : Dev nD) (t : Fin cfg0.N) (h2 : t.val % 4 = 3) (h3 : t.val % 32 ≠ 31) (p : St F) : St F where
  o4 := VS0_1.read (Elt F) (VS0_1.writes (Elt F) VS0_1.junk (rD m c t h2 h3 p.s0 p.s1).2.1)
  o5 := p.s2
  s0 := VS0_0.read (Elt F) (VS0_0.writes (Elt F) VS0_0.junk (rD m c t h2 h3 p.s0 p.s1).1)
  s1 := VS0_1.read (Elt F) (VS0_1.writes (Elt F) VS0_1.junk (rD m c t h2 h3 p.s0 p.s1).2.1)
  s2 := p.s2

/-- After the last point: as for k = 3, and the result windows hold what was stored into them. -/
def stE (c : Dev nD) (t : Fin cfg0.N) (hE : t.val % 32 = 31) (p : St F) : St F where
  o4 := VO0_4.read (Elt F) (VO0_4.writes (Elt F) VO0_4.junk (rE m c t hE p.s0 p.s1 p.s2).1)
  o5 := VO0_5.read (Elt F) (VO0_5.writes (Elt F) VO0_5.junk (rE m c t hE p.s0 p.s1 p.s2).2.1)
  s0 := VS0_0.read (Elt F) (VS0_0.writes (Elt F) VS0_0.junk (rE m c t hE p.s0 p.s1 p.s2).2.2.1)
  s1 := VS0_1.read (Elt F) (VS0_1.writes (Elt F) VS0_1.junk (rE m c t hE p.s0 p.s1 p.s2).2.2.2.1)
  s2 := p.s2

/-- THE RECURSION over the points: the state after point `n`, from the state after point `n - 1`, by the case of `n`. -/
def outsAt0 (c : Dev nD) : (n : ℕ) → n < cfg0.N → St F
  | 0, hn => stA m c ⟨0, hn⟩ (Nat.zero_mod _)
  | n + 1, hn =>
    if h0 : (n + 1) % 32 = 0 then stA m c ⟨n + 1, hn⟩ h0
    else if h1 : (n + 1) % 4 = 0 then stB m c ⟨n + 1, hn⟩ h1 h0 (outsAt0 c n (Nat.lt_of_succ_lt hn))
    else if h3 : (n + 1) % 32 = 31 then stE m c ⟨n + 1, hn⟩ h3 (outsAt0 c n (Nat.lt_of_succ_lt hn))
    else if h2 : (n + 1) % 4 = 3 then stD m c ⟨n + 1, hn⟩ h2 h3 (outsAt0 c n (Nat.lt_of_succ_lt hn))
    else stC m c ⟨n + 1, hn⟩ h1 h2 (outsAt0 c n (Nat.lt_of_succ_lt hn))

theorem outsAt0_A (c : Dev nD) (t : Fin cfg0.N) (hA : t.val % 32 = 0) : outsAt0 m c t.val t.isLt = stA m c t hA := by
  obtain ⟨n, hn⟩ := t
  cases n with
  | zero => rfl
  | succ n => exact (dif_pos hA).trans rfl

theorem outsAt0_B (c : Dev nD) (t : Fin cfg0.N) (h1 : t.val % 4 = 0) (h0 : t.val % 32 ≠ 0) :
    outsAt0 m c t.val t.isLt = stB m c t h1 h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem outsAt0_C (c : Dev nD) (t : Fin cfg0.N) (h1 : t.val % 4 ≠ 0) (h2 : t.val % 4 ≠ 3) :
    outsAt0 m c t.val t.isLt = stC m c t h1 h2 (outsAt0 m c (t.val - 1) (Nat.lt_of_le_of_lt (Nat.sub_le _ _) t.isLt)) := by
  obtain ⟨n, hn⟩ := t
  cases n with
  | zero => exact absurd (Nat.zero_mod _) h1
  | succ n =>
    have h0 : ¬(n + 1) % 32 = 0 := fun h => h1 (by dsimp only at h1 ⊢; omega)
    have h3 : ¬(n + 1) % 32 = 31 := fun h => h2 (by dsimp only at h2 ⊢; omega)
    exact (dif_neg h0).trans ((dif_neg h1).trans ((dif_neg h3).trans ((dif_neg h2).trans rfl)))

theorem outsAt0_D (c : Dev nD) (t : Fin cfg0.N) (h2 : t.val % 4 = 3) (h3 : t.val % 32 ≠ 31) :
    outsAt0 m c t.val t.isLt = stD m c t h2 h3 (outsAt0 m c (t.val - 1) (Nat.lt_of_le_of_lt (Nat.sub_le _ _) t.isLt)) := by
  obtain ⟨n, hn⟩ := t
  cases n with
  | zero => exact absurd (show (0 : ℕ) % 4 = 3 from h2) (by decide)
  | succ n =>
    have h0 : ¬(n + 1) % 32 = 0 := fun h => by dsimp only at h2; omega
    have h1 : ¬(n + 1) % 4 = 0 := fun h => by dsimp only at h2; omega
    exact (dif_neg h0).trans ((dif_neg h1).trans ((dif_neg h3).trans ((dif_pos h2).trans rfl)))

theorem outsAt0_E (c : Dev nD) (t : Fin cfg0.N) (hE : t.val % 32 = 31) :
    outsAt0 m c t.val t.isLt = stE m c t hE (outsAt0 m c (t.val - 1) (Nat.lt_of_le_of_lt (Nat.sub_le _ _) t.isLt)) := by
  obtain ⟨n, hn⟩ := t
  cases n with
  | zero => exact absurd (show (0 : ℕ) % 32 = 31 from hE) (by decide)
  | succ n =>
    have h0 : ¬(n + 1) % 32 = 0 := fun h => by dsimp only at hE; omega
    have h1 : ¬(n + 1) % 4 = 0 := fun h => by dsimp only at hE; omega
    exact (dif_neg h0).trans ((dif_neg h1).trans ((dif_pos hE).trans rfl))

/-! ## The region invariant -/

/-- Before the first point: the three scratch operands at anything and the generator register at some state. Before
    point `n + 1`: each scratch operand at what point `n` left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2)) ∗ (∃ r, prngReg c r)) := by
  cases n with
  | zero => exact absurd rfl hz
  | succ n => rfl

/-! ## The pipeline's proof data -/

/-- The share at which each window holds its array: windows 1 and 2 both read F_ll and hold one half each. -/
def qs : Fin 6 → PosShare TreeShare := ![fullShare, fullShare.left, fullShare.right, fullShare, fullShare, fullShare]

/-- The proof data on core `c`: the arrays as the region finds them; after the body at point `t` each input window's
    buffer at its block and the result windows' at the recursion's components; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) : (dats m 0 c).q = qs := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the input windows hold their blocks; the point's number selects the case; the invariant
    hands the case's run each scratch operand at what the point before left and takes it back at this point's
    contents; a result window idle at the point is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hA : t.val % 32 = 0
  · -- the first point
    rw [Dat.leavesExact_idle (dats m 0 c) 4 t (idleAt0_4 t (nc3_of t (by omega))) (noFlush0_4 t (nc3_of t (by omega)))]
    rw [Dat.leavesExact_idle (dats m 0 c) 5 t (idleAt0_5 t (nc3_of t (by omega))) (noFlush0_5 t (nc3_of t (by omega)))]
    rw [outsAt0_A m c t hA]
    unfold stA; dsimp only
    have hz : t.val = 0 := by omega
    rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((rA m c t hA ).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverA_s0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverA_s1 c _ _ _ _ _ _ _ _ _ _ _ _ _ _ _ _ _ _ _ _ _ _ _ _ _ _ _)
        unfold owns; iexists _; isplitr
        swap; · iexact HS2
        ipureintro; exact View.read_writes_of_cover _ _ _ _ _ (coverA_s2 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val % 4 = 0
    · -- k = 0, i > 0
      have h0 : t.val % 32 ≠ 0 := hA
      rw [Dat.leavesExact_idle (dats m 0 c) 4 t (idleAt0_4 t (nc3_of t (by omega))) (noFlush0_4 t (nc3_of t (by omega)))]
      rw [Dat.leavesExact_idle (dats m 0 c) 5 t (idleAt0_5 t (nc3_of t (by omega))) (noFlush0_5 t (nc3_of t (by omega)))]
      rw [outsAt0_B m c t h1 h0]
      unfold stB; dsimp only
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rB m c t h1 h0 _).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      isplitl [HS2]; · iexact HS2
      iintro ⟨H0, H1, H2, H3, H4, H5, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB_s0 c _ _ _ _ _ _ _ _ _ _ _ _ _ _ _ _ _ _ _ _ _ _ _ _ _ _ _ _)
          isplitl [HS1]
          · iexact HS1
          unfold owns; iexists _; isplitr
          swap; · iexact HS2
          ipureintro; exact View.read_writes_of_cover _ _ _ _ _ (coverB_s2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · by_cases hE : t.val % 32 = 31
      · -- the last point
        rw [show (dats m 0 c).leavesExact 4 t = owns (c : Thread nD τ) (ms0_4 t) fullShare ((dats m 0 c).after 4 t) from by
          unfold Dat.leavesExact; rw [liveAt0_4 t (c3_of t hE)], after0_4]
        rw [show (dats m 0 c).leavesExact 5 t = owns (c : Thread nD τ) (ms0_5 t) fullShare ((dats m 0 c).after 5 t) from by
          unfold Dat.leavesExact; rw [liveAt0_5 t (c3_of t hE)], after0_5]
        rw [outsAt0_E m c t hE]
        unfold stE; dsimp only
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((rE m c t hE _ _ _).2.2.2.2  Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        iintro ⟨H0, H1, H2, H3, ⟨%eo4, H4⟩, ⟨%eo5, H5⟩, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (coverE_s0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (coverE_s1 c _ _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (coverE_o4 c _ _ _ _ _ _ _ _ _ _ _ _ _ _ _ _ _ _ _ _ _ _ _ _ _ _ _ _ _ _)
        unfold owns; iexists _; isplitr
        swap; · iexact H5
        ipureintro; exact View.read_writes_of_cover _ _ _ _ _ (coverE_o5 c _ _ _ _ _ _ _ _ _ _ _ _ _ _ _ _ _ _ _ _ _ _ _ _ _ _ _ _ _ _)
      · by_cases h2 : t.val % 4 = 3
        · -- k = 3, i < 7
          have h3 : t.val % 32 ≠ 31 := hE
          rw [Dat.leavesExact_idle (dats m 0 c) 4 t (idleAt0_4 t (nc3_of t (by omega))) (noFlush0_4 t (nc3_of t (by omega)))]
          rw [Dat.leavesExact_idle (dats m 0 c) 5 t (idleAt0_5 t (nc3_of t (by omega))) (noFlush0_5 t (nc3_of t (by omega)))]
          rw [outsAt0_D m c t h2 h3]
          unfold stD; dsimp only
          have hz : t.val ≠ 0 := by omega
          rw [PhiS_castSucc m c t, PhiS_pos m c _ _ hz]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((rD m c t h2 h3 _ _).2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, HS2⟩
          isplitl [HS0 HS1 HS2 Hg]
          · isplitl [HS0 HS1 HS2]
            · isplitl [HS0]
              · unfold owns; iexists _; isplitr
                swap; · iexact HS0
                ipureintro; exact View.read_writes_of_cover _ _ _ _ _ (coverD_s0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (coverD_s1 c _ _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexists _; iexact H4
          iexists _; iexact H5
        · -- 0 < k < 3
          rw [Dat.leavesExact_idle (dats m 0 c) 4 t (idleAt0_4 t (nc3_of t (by omega))) (noFlush0_4 t (nc3_of t (by omega)))]
          rw [Dat.leavesExact_idle (dats m 0 c) 5 t (idleAt0_5 t (nc3_of t (by omega))) (noFlush0_5 t (nc3_of t (by omega)))]
          rw [outsAt0_C m c t h1 h2]
          unfold stC; dsimp only
          have hz : t.val ≠ 0 := by omega
          rw [PhiS_castSucc m c t, PhiS_pos m c _ _ hz]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((rC m c t h1 h2 _).2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, HS1, HS2⟩
          isplitl [HS0 HS1 HS2 Hg]
          · isplitl [HS0 HS1 HS2]
            · isplitl [HS0]
              · unfold owns; iexists _; isplitr
                swap; · iexact HS0
                ipureintro; exact View.read_writes_of_cover _ _ _ _ _ (coverC_s0 c _ _ _ _ _ _ _ _ _ _ _ _ _ _ _ _ _ _ _ _ _ _ _ _ _ _ _ _)
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexists _; iexact H4
          iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch operands back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.K.Tail.lean ====
/- The six host operations after the region, as one function of the two results and λ:
   reshape(out₀) + λ · Σ_{p,q} out₁[p,q]². -/
import proofs.«110513_j575525618299_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scalar the host tail leaves in the program's result buffer. -/
def tailTerm (o4 : Vec F S1x1 .f32) (o5 : Vec F S64x64 .f32) (lam : Vec F S_ .f32) : Vec F S_ .f32 :=
  addf (shapeCast S_ o4 shapeCasts_S1x1_S_)
    (mulf lam (Host.reduceAdd (mulf o5 o5) (constant S_ .f32 0x00000000#32) reducesTo_S64x64_S_d0_1 h_S_))

end Cert.Kernel.Hand

end
-- ==== Proof.K.Launch.lean ====
/- The launch of the loss kernel's region and the six host operations after it. Two of the six windows read the
   same array F_ll: its full share is dealt to them in halves when the region is entered and joined again when it is
   left, and the host operations then run over the five distinct arrays and the buffers that bypass the region. -/
import proofs.«110513_j575525618299_1_alg».proof.Proof.K.Frame
import proofs.«110513_j575525618299_1_alg».proof.Proof.K.Tail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays as a chain: two windows read the rows of F_ll, each at one half of its share -/

/-- The pipeline's arrays, window by window: Θ whole, F_ll at the left half for its 2048-row window and at the right
    half for its 1024-row window, F_ul whole, the two results whole. -/
theorem arrays_chain {c : Dev nD} (dat : Dat τ (Elt F) Unit ℕ (UR sig nD τ) ℕ cfg0 c)
    (h0 : dat.q 0 = fullShare) (h1 : dat.q 1 = fullShare.left) (h2 : dat.q 2 = fullShare.right) (h3 : dat.q 3 = fullShare)
    (Fw : (w : Fin cfg0.W) → Buf (Elt F) ((cfg0.win w).arr.view.loc (c.tc : Thread nD τ))) :
    (dat.arrays Fw : sProp 𝕄) = iprop(
      (((c : Thread nD τ).loc main_arg2) ↦{fullShare} Fw 0) ∗ (((c : Thread nD τ).loc main_arg0) ↦{fullShare.left} Fw 1)
      ∗ (((c : Thread nD τ).loc main_arg0) ↦{fullShare.right} Fw 2) ∗ (((c : Thread nD τ).loc main_arg1) ↦{fullShare} Fw 3)
      ∗ (((c : Thread nD τ).loc main_v0_0) ↦{fullShare} Fw 4) ∗ (((c : Thread nD τ).loc main_v0_1) ↦{fullShare} Fw 5)) := by
  have e : (fun w : Fin cfg0.W => ((cfg0.win w).arr.view.loc (c.tc : Thread nD τ) ↦[(cfg0.win w).arr.view.set]{dat.share w} Fw w : sProp 𝕄))
      = fun w => (((c.tc : Thread nD τ).loc (Pipeline.arrRef spec0 w)) ↦{dat.share w} Fw w) :=
    funext fun w => by rw [(arr_whole0 w).set_eq_univ]
  unfold Dat.arrays
  rw [e, bigSep_W0]
  rw [show dat.share 0 = fullShare from h0, show dat.share 1 = fullShare.left from h1, show dat.share 2 = fullShare.right from h2,
    show dat.share 3 = fullShare from h3, show dat.share 4 = fullShare from rfl, show dat.share 5 = fullShare from rfl]

/-- The five distinct buffers behind the six windows, each whole. -/
theorem arrBufs_chain (c : Dev nD) (Vv : (b : Ref sig .tc) → Buf (Elt F) ((c : Thread nD τ).loc b)) :
    (Pipeline.arrBufs spec0 c Vv : sProp 𝕄) = iprop(
      (((c : Thread nD τ).loc main_arg2) ↦{fullShare} Vv main_arg2) ∗ (((c : Thread nD τ).loc main_arg0) ↦{fullShare} Vv main_arg0)
      ∗ (((c : Thread nD τ).loc main_arg1) ↦{fullShare} Vv main_arg1) ∗ (((c : Thread nD τ).loc main_v0_0) ↦{fullShare} Vv main_v0_0)
      ∗ (((c : Thread nD τ).loc main_v0_1) ↦{fullShare} Vv main_v0_1)) := by
  unfold Pipeline.arrBufs
  exact bigSep_eq_bigSepL_of_eq [main_arg2, main_arg0, main_arg1, main_v0_0, main_v0_1] (by decide) (by decide) _

/-! ## The five windows with distinct arrays -/

/-- Every window but the second reader of F_ll. -/
abbrev σ5 : Fin 5 → Fin 6 := ![0, 1, 3, 4, 5]
/-- The family of those five windows: its arrays are pairwise distinct and are all the arrays of the six. -/
abbrev win5 : Fin 5 → Pipeline.WinSpec sig grid0.rank := fun w => spec0 (σ5 w)

theorem win5_inj : Function.Injective (Pipeline.arrRef win5) := by decide
theorem img5 : Finset.univ.image (Pipeline.arrRef win5) = Finset.univ.image (Pipeline.arrRef spec0) := by decide

theorem bigSep_W5 {M : Type} [URA M] (Φ : Fin 5 → sProp M) :
    bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

/-- The five arrays whole, as a chain. -/
theorem arrPts5_chain (c : Dev nD) (A : (w : Fin 5) → Buf (Elt F) ((win5 w).arr.view.loc (c.tc : Thread nD τ))) :
    (Pipeline.arrPts (Ix := Unit) (Name := ℕ) (U := UR sig nD τ) (Lvl := ℕ) win5 c A : sProp 𝕄) = iprop(
      (((c : Thread nD τ).loc main_arg2) ↦{fullShare} A 0) ∗ (((c : Thread nD τ).loc main_arg0) ↦{fullShare} A 1)
      ∗ (((c : Thread nD τ).loc main_arg1) ↦{fullShare} A 2) ∗ (((c : Thread nD τ).loc main_v0_0) ↦{fullShare} A 3)
      ∗ (((c : Thread nD τ).loc main_v0_1) ↦{fullShare} A 4)) := by
  unfold Pipeline.arrPts
  rw [bigSep_W5]
  rfl

/-- The buffers that bypass the region are the same for the five windows as for the six. -/
theorem unscopedRestP5 (c : Dev nD) (Vv : (b : Ref sig .tc) → Buf (Elt F) ((c : Thread nD τ).loc b)) :
    (Pipeline.unscopedRestP Pipeline.Prefetch.none win5 c Vv : sProp 𝕄) = Pipeline.unscopedRestP Pipeline.Prefetch.none spec0 c Vv := by
  unfold Pipeline.unscopedRestP
  rw [img5]

theorem restRefsP5 : Pipeline.restRefsP sig Pipeline.Prefetch.none win5 = Pipeline.restRefsP sig Pipeline.Prefetch.none spec0 := by
  unfold Pipeline.restRefsP Pipeline.restRefs
  rw [img5]

/-! ## The six host operations after the region -/

theorem sfx_sub : ∀ ops ∈ ([hostOps1] : List (List (HloOp τ sig (Elt F)))), ∀ op ∈ ops,
    op.bufs ⊆ Pipeline.tailRefs sig Pipeline.Prefetch.none win5 := by
  rw [Pipeline.tailRefs_none win5 (fun w => winFacts₀0.arr_unscoped (σ5 w))]
  intro ops hops op hop
  rw [List.mem_singleton] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp hostOps1_fresh) op hop

/-- The operations write the six buffers after the results, none of which is an array of the pipeline. -/
theorem sfx_keeps : ∀ ops ∈ ([hostOps1] : List (List (HloOp τ sig (Elt F)))), ∀ op ∈ ops,
    ∀ w, Proc.devRef .tc (Pipeline.arrRef win5 w) ∉ op.writes := by
  intro ops hops op hop
  rw [List.mem_singleton] at hops
  subst hops
  simp only [hostOps1, List.mem_cons, List.mem_nil_iff, or_false] at hop
  rcases hop with rfl | rfl | rfl | rfl | rfl | rfl
  all_goals
    intro w
    fin_cases w <;> simp only [StableHlo.nullary_writes, StableHlo.binary_writes, StableHlo.reshape_writes, Finset.mem_singleton] <;>
      exact StableHlo.devRef_ne_of_ne (by decide)

/-! ## The arrays at the region's entry and exit -/

/-- The five arrays at the region's exit. -/
abbrev A5 (c : Dev nD) : (w : Fin 5) → Buf (Elt F) ((win5 w).arr.view.loc (c.tc : Thread nD τ)) :=
  fun w => (dats m 0 c).arrAt (σ5 w) cfg0.N

/-- Both readers of F_ll find it, and leave it, at its entry contents. -/
theorem arrAt_2_eq_1 (c : Dev nD) : (dats m 0 c).arrAt 2 cfg0.N = (dats m 0 c).arrAt 1 cfg0.N := by
  rw [(dats m 0 c).arrAt_in 2 rfl cfg0.N, (dats m 0 c).arrAt_in 1 rfl cfg0.N]
  rfl

/-- At the launch the five buffers, F_ll's full share dealt in halves to its two readers, are the pipeline's arrays. -/
theorem hsplit0 (c : Dev nD) :
    (Pipeline.arrBufs spec0 c (V m c) : sProp 𝕄) ⊢ (dats m 0 c).arrays ((dats m 0 c).arrAt · 0) := by
  rw [arrBufs_chain, arrays_chain (dats m 0 c) rfl rfl rfl rfl]
  iintro ⟨H2, H0, H1, H4, H5⟩
  ihave H0 := (pointsTo_share (PosShare.mem_left_op_right fullShare)).1 $$ H0
  icases H0 with ⟨H0l, H0r⟩
  isplitl [H2]; · iexact H2
  isplitl [H0l]; · iexact H0l
  isplitl [H0r]; · iexact H0r
  isplitl [H1]; · iexact H1
  isplitl [H4]; · iexact H4
  iexact H5

/-- The five arrays at their exit contents, as a chain. -/
theorem arrPts5_A5 (c : Dev nD) :
    (Pipeline.arrPts (Ix := Unit) (Name := ℕ) (U := UR sig nD τ) (Lvl := ℕ) win5 c (A5 m c) : sProp 𝕄) = iprop(
      (((c : Thread nD τ).loc main_arg2) ↦{fullShare} (dats m 0 c).arrAt 0 cfg0.N)
      ∗ (((c : Thread nD τ).loc main_arg0) ↦{fullShare} (dats m 0 c).arrAt 1 cfg0.N)
      ∗ (((c : Thread nD τ).loc main_arg1) ↦{fullShare} (dats m 0 c).arrAt 3 cfg0.N)
      ∗ (((c : Thread nD τ).loc main_v0_0) ↦{fullShare} (dats m 0 c).arrAt 4 cfg0.N)
      ∗ (((c : Thread nD τ).loc main_v0_1) ↦{fullShare} (dats m 0 c).arrAt 5 cfg0.N)) := by
  rw [arrPts5_chain]
  rfl

/-- The full share of F_ll is its two halves. -/
theorem share_arg0 (c : Dev nD) :
    ((((c : Thread nD τ).loc main_arg0) ↦{fullShare} (dats m 0 c).arrAt 1 cfg0.N) : sProp 𝕄)
      ⊣⊢ iprop((((c : Thread nD τ).loc main_arg0) ↦{fullShare.left} (dats m 0 c).arrAt 1 cfg0.N)
          ∗ (((c : Thread nD τ).loc main_arg0) ↦{fullShare.right} (dats m 0 c).arrAt 1 cfg0.N)) :=
  pointsTo_share (PosShare.mem_left_op_right fullShare)

/-- At the region's exit the two halves of F_ll join: the pipeline's arrays are the five buffers whole. -/
theorem arrays_to5 (c : Dev nD) :
    ((dats m 0 c).arrays ((dats m 0 c).arrAt · cfg0.N) : sProp 𝕄)
      ⊢ Pipeline.arrPts (Ix := Unit) (Name := ℕ) (U := UR sig nD τ) (Lvl := ℕ) win5 c (A5 m c) := by
  rw [arrays_chain (dats m 0 c) rfl rfl rfl rfl, arrPts5_A5]
  rw [arrAt_2_eq_1]
  iintro ⟨H2, H0l, H0r, H1, H4, H5⟩
  ihave H0 := (share_arg0 m c).2 $$ [H0l H0r]
  · isplitl [H0l] <;> iassumption
  isplitl [H2]; · iexact H2
  isplitl [H0]; · iexact H0
  isplitl [H1]; · iexact H1
  isplitl [H4]; · iexact H4
  iexact H5

/-- And back. -/
theorem arrays_from5 (c : Dev nD) :
    (Pipeline.arrPts (Ix := Unit) (Name := ℕ) (U := UR sig nD τ) (Lvl := ℕ) win5 c (A5 m c) : sProp 𝕄)
      ⊢ (dats m 0 c).arrays ((dats m 0 c).arrAt · cfg0.N) := by
  rw [arrays_chain (dats m 0 c) rfl rfl rfl rfl, arrPts5_A5]
  rw [arrAt_2_eq_1]
  iintro ⟨H2, H0, H1, H4, H5⟩
  ihave H0 := (share_arg0 m c).1 $$ H0
  icases H0 with ⟨H0l, H0r⟩
  isplitl [H2]; · iexact H2
  isplitl [H0l]; · iexact H0l
  isplitl [H0r]; · iexact H0r
  isplitl [H1]; · iexact H1
  isplitl [H4]; · iexact H4
  iexact H5

/-! ## What the host operations leave -/

/-- The core's buffers when the region is left: the five arrays at their exit contents, the rest as at the entry. -/
abbrev W5 (c : Dev nD) : Valuation τ sig (Elt F) := Pipeline.withArrays win5 c (V0 m c) (A5 m c)

/-- What each buffer holds after the six operations. -/
abbrev afterTail5 (c : Dev nD) (b : Ref sig .tc) : Buf (Elt F) ((c : Thread nD τ).loc b) :=
  StableHlo.after ([hostOps1] : List (List (HloOp τ sig (Elt F)))).flatten (W5 m c) (Proc.devRef .tc b)

/-- The program's result buffer holds the tail's scalar of the two results at the region's exit and of λ. -/
theorem after_v5 (c : Dev nD) :
    afterTail5 m c main_v5
      = tailTerm ((dats m 0 c).arrAt 4 cfg0.N) ((dats m 0 c).arrAt 5 cfg0.N) (m ((c : Thread nD τ).loc main_arg3)) := by
  show StableHlo.after hostOps1 (W5 m c) (Proc.devRef .tc main_v5) = _
  after_results
  rw [show W5 m c (Proc.devRef .tc main_v0_0) = A5 m c 3 from Pipeline.withArrays_arr win5 win5_inj c _ _ 3,
    show W5 m c (Proc.devRef .tc main_v0_1) = A5 m c 4 from Pipeline.withArrays_arr win5 win5_inj c _ _ 4,
    show W5 m c (Proc.devRef .tc main_arg3) = V0 m c (Proc.devRef .tc main_arg3) from
      Pipeline.withArrays_of_ne win5 c _ _ main_arg3 (by decide)]
  rfl

/-- λ's buffer is not written. -/
theorem after_arg3 (c : Dev nD) : afterTail5 m c main_arg3 = m ((c : Thread nD τ).loc main_arg3) := by
  show StableHlo.after hostOps1 (W5 m c) (Proc.devRef .tc main_arg3) = _
  after_results
  exact Pipeline.withArrays_of_ne win5 c _ _ main_arg3 (by decide)

theorem mem_rest_v5 : main_v5 ∈ Pipeline.restRefsP sig Pipeline.Prefetch.none spec0 :=
  Finset.mem_sdiff.mpr ⟨Pipeline.mem_restRefs_of main_v5 rfl (by decide), fun h => by
    obtain ⟨k, -, -⟩ := Finset.mem_image.mp h; exact k.elim0⟩
theorem mem_rest_arg3 : main_arg3 ∈ Pipeline.restRefsP sig Pipeline.Prefetch.none spec0 :=
  Finset.mem_sdiff.mpr ⟨Pipeline.mem_restRefs_of main_arg3 rfl (by decide), fun h => by
    obtain ⟨k, -, -⟩ := Finset.mem_image.mp h; exact k.elim0⟩

/-! ## The launch -/

set_option maxHeartbeats 1600000 in
set_option backward.isDefEq.respectTransparency.types false in
/-- @main from the launch: the region, its six windows on five arrays, then the six host operations. The result buffer
    ends at the tail's scalar of the two results the last point wrote and of λ; the four arguments are unchanged. -/
theorem run_main : θ_run defs (onTc (τ := τ) (main (F := F))) ⟨m, fun _ => 0, ρ⟩ (fun r => ∀ c : Dev nD,
      r.2.mem ((c.tc : Thread nD τ).loc main_v5) = tailTerm ((dats m 0 c).arrAt 4 cfg0.N) ((dats m 0 c).arrAt 5 cfg0.N) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact Pipeline.θ_run_region_pf_tail (Ix := Unit) (Name := ℕ) (U := UR sig nD τ) (Lvl := ℕ)
    (pcfgs (F := F)) (fun q => (cfgs q).toPCfg_adm) (dats m) () cellOf_inj 0 winFacts₀0 (Pipeline.OwnSemFacts.none spec0)
    (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none)
    (hsplit := fun c => hsplit0 m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (afterTail5 m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have h := Pipeline.tail_seqs (Ix := Unit) (Name := ℕ) (U := UR sig nD τ) (Lvl := ℕ) (pcfgs (F := F)) defs₀ Variants.none
        Pipeline.Prefetch.none win5 win5_inj c (V0 m c) (A5 m c) [hostOps1] sfx_sub sfx_fresh sfx_keeps Q'
      rw [unscopedRestP5, unscopedRestP5] at h
      refine BIBase.Entails.trans ?_ h
      iintro ⟨Hk, Hb, Ha, Hz⟩
      isplitl [Hk]
      · iintro ⟨Ha, Hz⟩
        iapply Hk
        isplitl [Ha]
        · iapply (arrays_from5 m c); iexact Ha
        · iexact Hz
      isplitl [Hb]; · iexact Hb
      isplitl [Ha]
      · iapply (arrays_to5 m c); iexact Ha
      iexact Hz)
    (QY := fun c s => ∀ b ∈ Pipeline.restRefsP sig Pipeline.Prefetch.none spec0, s.mem ((c.tc : Thread nD τ).loc b) = afterTail5 m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (afterTail5 m c) s')
      isplitl [HU] <;> iassumption)
    (hQ := fun s h c => by
      obtain ⟨hw, -, hr⟩ := h c
      refine ⟨(hr main_v5 mem_rest_v5).trans (after_v5 m c), ?_, ?_, ?_, (hr main_arg3 mem_rest_arg3).trans (after_arg3 m c)⟩
      · exact (hw 1).trans ((dats m 0 c).arrAt_in 1 rfl cfg0.N)
      · exact (hw 3).trans ((dats m 0 c).arrAt_in 3 rfl cfg0.N)
      · exact (hw 0).trans ((dats m 0 c).arrAt_in 0 rfl cfg0.N))

end Cert.Kernel.Hand

end
-- ==== Proof.KI.Runs.lean ====
/- What the five control cases of the loss kernel's body share: the contents of the core's buffers when the
   region is entered, each input window's block at a grid point, the four branch conditions of the body in
   closed form over the 8 × 4 grid, where the two result windows are idle, and names for the staging and
   scratch memrefs the body is called with. -/
import proofs.«110513_j575525618299_1_alg».proof.Proof.Gen.KernelIdeal.Launch
import proofs.«110513_j575525618299_1_alg».proof.Proof.Gen.KernelIdeal.Skeleton
import proofs.«110513_j575525618299_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry: no host operation precedes it -/

/-- Core `c`'s buffer contents when the region is entered: the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region followed by the six host operations that fold the two results into the scalar loss. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. Window 0 is the
    1024 × 2048 tile (i, k) of Θ, window 1 the rows 2048 k … of F_ll, windows 2 and 3 the rows 1024 i … of
    F_ll and of F_ul. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's four branch conditions, in closed form over the grid (point t = 4 i + k) -/

/-- First branch: i = 0 and k = 0 (the running sum and the Gram matrix are reset). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- Second branch: k = 0 (the row accumulator is reset, the Gram matrix takes this row tile's term). -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- Third branch: k = 3 (the row tile's contribution is added to the running sum). -/
abbrev cond0_2 (i : grid0.Coords) : Prop := (Scalar.cmpi .ne (Scalar.extui (Scalar.cmpi .eq (BitVec.ofNat 32 (i 1).val) 3#32)) 0#32) = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- Fourth branch: i = 7 and k = 3, the last point (both results are written out). -/
abbrev cond0_3 (i : grid0.Coords) : Prop := k0_cond4 i = 1#1
theorem hcond0_3 : ∀ t : Fin cfg0.N, cond0_3 (grid0.coords t) ↔ t.val % 32 = 31 :=
  (by decide +kernel : ∀ t : Fin grid0.N, cond0_3 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the two result windows are idle and are not written back. -/
theorem idleAt0_4 : ∀ t : Fin cfg0.N, ¬cond0_3 (grid0.coords t) → cfg0.idle 4 (grid0.coords t) = true := by decide +kernel
theorem noFlush0_4 : ∀ t : Fin cfg0.N, ¬cond0_3 (grid0.coords t) → (cfg0.win 4).flush t = false := by decide +kernel
theorem idleAt0_5 : ∀ t : Fin cfg0.N, ¬cond0_3 (grid0.coords t) → cfg0.idle 5 (grid0.coords t) = true := by decide +kernel
theorem noFlush0_5 : ∀ t : Fin cfg0.N, ¬cond0_3 (grid0.coords t) → (cfg0.win 5).flush t = false := by decide +kernel
/-- At the last point they are live. -/
theorem liveAt0_4 : ∀ t : Fin cfg0.N, cond0_3 (grid0.coords t) → cfg0.idle 4 (grid0.coords t) = false := by decide +kernel
theorem liveAt0_5 : ∀ t : Fin cfg0.N, cond0_3 (grid0.coords t) → cfg0.idle 5 (grid0.coords t) = false := by decide +kernel

/-! ## The memrefs the body is called with -/

abbrev VO0_4 : View sig .tc .vmem S1x1 .f32 := (Memref.whole cc0_stg4_0 : Memref sig .tc .vmem S1x1 .f32).view
abbrev VO0_5 : View sig .tc .vmem S64x64 .f32 := (Memref.whole cc0_stg5_0 : Memref sig .tc .vmem S64x64 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
/-- The three scratch operands: the 1024 × 64 row accumulator, the 1 × 1 running sum, the 64 × 64 Gram matrix. -/
abbrev scM0_0 : Memref sig .tc .vmem S1024x64 .f32 := Memref.whole cc0_scratch0
abbrev scM0_1 : Memref sig .tc .vmem S1x1 .f32 := Memref.whole cc0_scratch1
abbrev scM0_2 : Memref sig .tc .vmem S64x64 .f32 := Memref.whole cc0_scratch2
abbrev VS0_0 : View sig .tc .vmem S1024x64 .f32 := scM0_0.view
abbrev VS0_1 : View sig .tc .vmem S1x1 .f32 := scM0_1.view
abbrev VS0_2 : View sig .tc .vmem S64x64 .f32 := scM0_2.view

/-- The scoped rest of the core is the three scratch operands, each owned at some contents; with the generator
    register at some state this is what the region hands the body before the first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/- The body at the first point (i = 0, k = 0): the running sum and the Gram matrix are reset, then the row accumulator; the Gram matrix takes the first row tile's term F_ul(0)ᵀ · F_ll(0) and the accumulator the first tile product. -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i)
    (x0 : Vec F S1024x2048 .f32) (x1 : Vec F S2048x64 .f32) (x2 : Vec F S1024x64 .f32) (x3 : Vec F S1024x64 .f32)  :
    Σ' (LS0 : List (View.Piece (Elt F) S1024x64 .f32)), Σ' (LS1 : List (View.Piece (Elt F) S1x1 .f32)), { LS2 : List (View.Piece (Elt F) S64x64 .f32) //
      ∀ (xi4 : Vec F S1x1 .f32) (xi5 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%ds0, %fs0, -, Hs0⟩, ⟨%ds1, %fs1, -, Hs1⟩, ⟨%ds2, %fs2, -, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]; · iexists _; iexact Hs1
    iexists _; iexact Hs2

end Cert.KernelIdeal.Hand

end
-- ==== Proof.KI.RunB.lean ====
/- The body at the points with k = 0 and i > 0: the row accumulator is reset and takes the first tile product, the Gram matrix takes row tile i's term F_ul(i)ᵀ · F_ll(i). -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : cond0_1 i) (hc2 : ¬cond0_2 i) (hc3 : ¬cond0_3 i)
    (x0 : Vec F S1024x2048 .f32) (x1 : Vec F S2048x64 .f32) (x2 : Vec F S1024x64 .f32) (x3 : Vec F S1024x64 .f32) (xs2 : Vec F S64x64 .f32) :
    Σ' (LS0 : List (View.Piece (Elt F) S1024x64 .f32)), { LS2 : List (View.Piece (Elt F) S64x64 .f32) //
      ∀ (xi4 : Vec F S1x1 .f32) (xi5 : Vec F S64x64 .f32) (xs1 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ owns (c : Thread nD τ) arg9 fullShare xs1 ∗ (∃ f, arg10.view.loc (c : Thread nD τ) ↦[arg10.view.set]{fullShare} arg10.view.writes (Elt F) f LS2)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, fun xi4 xi5 xs1 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%ds0, %fs0, -, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]
    · iexists _; isplitr; · ipureintro; exact harg9.read_unread _
      iexact Hs1
    iexists _; iexact Hs2

end Cert.KernelIdeal.Hand

end
-- ==== Proof.KI.RunC.lean ====
/- The body at the points with 0 < k < 3: the tile product Θ(i,k) · F_ll(k) is added to the row accumulator. -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : ¬cond0_2 i) (hc3 : ¬cond0_3 i)
    (x0 : Vec F S1024x2048 .f32) (x1 : Vec F S2048x64 .f32) (x2 : Vec F S1024x64 .f32) (x3 : Vec F S1024x64 .f32) (xs0 : Vec F S1024x64 .f32) :
    { LS0 : List (View.Piece (Elt F) S1024x64 .f32) //
      ∀ (xi4 : Vec F S1x1 .f32) (xi5 : Vec F S64x64 .f32) (xs1 : Vec F S1x1 .f32) (xs2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ owns (c : Thread nD τ) arg9 fullShare xs1 ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, fun xi4 xi5 xs1 xs2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%fs0, %hfs0, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5; obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]
    · iexists _; isplitr; · ipureintro; exact harg9.read_unread _
      iexact Hs1
    iexists _; isplitr; · ipureintro; exact harg10.read_unread _
    iexact Hs2

end Cert.KernelIdeal.Hand

end
-- ==== Proof.KI.RunD.lean ====
/- The body at the points with k = 3 and i < 7: the last tile product is added to the row accumulator and the sum of its entrywise product with F_ll(i) to the running sum. -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_D (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : ¬cond0_3 i)
    (x0 : Vec F S1024x2048 .f32) (x1 : Vec F S2048x64 .f32) (x2 : Vec F S1024x64 .f32) (x3 : Vec F S1024x64 .f32) (xs0 : Vec F S1024x64 .f32) (xs1 : Vec F S1x1 .f32) :
    Σ' (LS0 : List (View.Piece (Elt F) S1024x64 .f32)), { LS1 : List (View.Piece (Elt F) S1x1 .f32) //
      ∀ (xi4 : Vec F S1x1 .f32) (xi5 : Vec F S64x64 .f32) (xs2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, fun xi4 xi5 xs2 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%fo4, %hfo4, Ho4⟩, ⟨%fo5, %hfo5, Ho5⟩, ⟨%fs0, %hfs0, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg6.eq_unread hfo4; obtain rfl := harg7.eq_unread hfo5; obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]
    · iexists _; isplitr; · ipureintro; exact harg6.read_unread _
      iexact Ho4
    isplitl [Ho5]
    · iexists _; isplitr; · ipureintro; exact harg7.read_unread _
      iexact Ho5
    isplitl [Hs0]; · iexists _; iexact Hs0
    isplitl [Hs1]; · iexists _; iexact Hs1
    iexists _; isplitr; · ipureintro; exact harg10.read_unread _
    iexact Hs2

end Cert.KernelIdeal.Hand

end
-- ==== Proof.KI.RunE.lean ====
/- The body at the last point (i = 7, k = 3): as for k = 3, and then the running sum and the Gram matrix are stored into the two result windows. -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case, on whole memrefs: the inputs at their blocks are handed back as found; a buffer the case
    does not store into is handed back at the contents it had; a buffer it stores into ends at the pieces the run
    finds written over it (last store first). -/
noncomputable def kernelRun0_E (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i)
    (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) :
    Σ' (L4 : List (View.Piece (Elt F) S1x1 .f32)), Σ' (L5 : List (View.Piece (Elt F) S64x64 .f32)), Σ' (LS0 : List (View.Piece (Elt F) S1024x64 .f32)), { LS1 : List (View.Piece (Elt F) S1x1 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ owns (c : Thread nD τ) arg10 fullShare xs2) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10) K } := by
  refine ⟨?_, ?_, ?_, ?_, fun  E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%do4, %fo4, -, Ho4⟩, ⟨%do5, %fo5, -, Ho5⟩, ⟨%fs0, %hfs0, Hs0⟩, ⟨%fs1, %hfs1, Hs1⟩, ⟨%fs2, %hfs2, Hs2⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Ho4]; · iexists _; iexact Ho4
    isplitl [Ho5]; · iexists _; iexact Ho5
    isplitl [Hs0]; · iexists _; iexact Hs0
    isplitl [Hs1]; · iexists _; iexact Hs1
    iexists _; isplitr; · ipureintro; exact harg10.read_unread _
    iexact Hs2

end Cert.KernelIdeal.Hand

end
-- ==== Proof.KI.Frame.lean ====
/- The loss kernel on its 8 × 4 grid, point by point: what the three scratch operands (the row accumulator, the
   running sum, the Gram matrix) and the two result windows hold after each point, the proof data of the pipeline over
   them, and the body obligation at every point by the five control cases. -/
import proofs.«110513_j575525618299_1_alg».proof.Proof.KI.RunA
import proofs.«110513_j575525618299_1_alg».proof.Proof.KI.RunB
import proofs.«110513_j575525618299_1_alg».proof.Proof.KI.RunC
import proofs.«110513_j575525618299_1_alg».proof.Proof.KI.RunD
import proofs.«110513_j575525618299_1_alg».proof.Proof.KI.RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stored pieces cover the buffer they are stored into -/

theorem coverA_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32)  (y : S1024x64.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 ).1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 ).1 S1024x64.size (by sl_kernel_rfl) y
theorem coverA_s1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32)  (y : S1x1.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 ).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 ).2.1 S1x1.size (by sl_kernel_rfl) y
theorem coverA_s2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32)  (y : S64x64.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 ).2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 ).2.2.1 S64x64.size (by sl_kernel_rfl) y
theorem coverB_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32) (xs2 : Vec F S64x64 .f32) (y : S1024x64.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 xs2).1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 xs2).1 S1024x64.size (by sl_kernel_rfl) y
theorem coverB_s2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : cond0_1 i) (hc2 : ¬cond0_2 i) (hc3 : ¬cond0_3 i) (x0 : Vec F S1024x2048 .f32) (x1 : Vec F S2048x64 .f32) (x2 : Vec F S1024x64 .f32) (x3 : Vec F S1024x64 .f32) (xs2 : Vec F S64x64 .f32) (y : S64x64.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 xs2).2.1 S64x64.size (by sl_kernel_rfl) y
theorem coverC_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : ¬cond0_2 i) (hc3 : ¬cond0_3 i) (x0 : Vec F S1024x2048 .f32) (x1 : Vec F S2048x64 .f32) (x2 : Vec F S1024x64 .f32) (x3 : Vec F S1024x64 .f32) (xs0 : Vec F S1024x64 .f32) (y : S1024x64.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 xs0).1 S1024x64.size (by sl_kernel_rfl) y
theorem coverD_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : ¬cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (y : S1024x64.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 xs0 xs1).1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 xs0 xs1).1 S1024x64.size (by sl_kernel_rfl) y
theorem coverD_s1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : ¬cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (y : S1x1.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 xs0 xs1).2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 xs0 xs1).2.1 S1x1.size (by sl_kernel_rfl) y
theorem coverE_o4 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S1x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).1 S1x1.size (by sl_kernel_rfl) y
theorem coverE_o5 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S64x64.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.1 S64x64.size (by sl_kernel_rfl) y
theorem coverE_s0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S1024x64.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.1 S1024x64.size (by sl_kernel_rfl) y
theorem coverE_s1 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S64x64 .f32) (harg10 : arg10.IsWhole) (hc0 : ¬cond0_0 i) (hc1 : ¬cond0_1 i) (hc2 : cond0_2 i) (hc3 : cond0_3 i) (x0 : Vec F S1024x2048 .f32) (x1 : Vec F S2048x64 .f32) (x2 : Vec F S1024x64 .f32) (x3 : Vec F S1024x64 .f32) (xs0 : Vec F S1024x64 .f32) (xs1 : Vec F S1x1 .f32) (xs2 : Vec F S64x64 .f32) (y : S1x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 x0 x1 x2 x3 xs0 xs1 xs2).2.2.2.1 S1x1.size (by sl_kernel_rfl) y

/-! ## The case of a point from its number t = 4 i + k -/

theorem c0_of (t : Fin cfg0.N) (h : t.val % 32 = 0) : cond0_0 (grid0.coords t) := (hcond0_0 t).mpr h
theorem nc0_of (t : Fin cfg0.N) (h : t.val % 32 ≠ 0) : ¬cond0_0 (grid0.coords t) := fun hh => h ((hcond0_0 t).mp hh)
theorem c1_of (t : Fin cfg0.N) (h : t.val % 4 = 0) : cond0_1 (grid0.coords t) := (hcond0_1 t).mpr h
theorem nc1_of (t : Fin cfg0.N) (h : t.val % 4 ≠ 0) : ¬cond0_1 (grid0.coords t) := fun hh => h ((hcond0_1 t).mp hh)
theorem c2_of (t : Fin cfg0.N) (h : t.val % 4 = 3) : cond0_2 (grid0.coords t) := (hcond0_2 t).mpr h
theorem nc2_of (t : Fin cfg0.N) (h : t.val % 4 ≠ 3) : ¬cond0_2 (grid0.coords t) := fun hh => h ((hcond0_2 t).mp hh)
theorem c3_of (t : Fin cfg0.N) (h : t.val % 32 = 31) : cond0_3 (grid0.coords t) := (hcond0_3 t).mpr h
theorem nc3_of (t : Fin cfg0.N) (h : t.val % 32 ≠ 31) : ¬cond0_3 (grid0.coords t) := fun hh => h ((hcond0_3 t).mp hh)

/-! ## What the buffers hold after each point -/

/-- The contents after a point of the two result windows' staging buffers (`o4`: 1 × 1, `o5`: 64 × 64) and of the
    three scratch operands (`s0`: the 1024 × 64 row accumulator, `s1`: the 1 × 1 running sum, `s2`: the 64 × 64
    Gram matrix). Before the last point the result windows are idle and their components are not consulted. -/
structure St (F : FTy → Type) [FloatOps F] where
  o4 : Vec F S1x1 .f32
  o5 : Vec F S64x64 .f32
  s0 : Vec F S1024x64 .f32
  s1 : Vec F S1x1 .f32
  s2 : Vec F S64x64 .f32

/-- Case A's run at point `t`: on the point's staging memrefs and the three scratch operands, over the four input blocks. -/
abbrev rA (c : Dev nD) (t : Fin cfg0.N) (hA : t.val % 32 = 0)  :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (c0_of t hA) (c1_of t (by omega)) (nc2_of t (by omega)) (nc3_of t (by omega)) (iblk m c 0 t) (iblk m c 1 t) (iblk m c 2 t) (iblk m c 3 t)

/-- Case B's run at point `t`: on the point's staging memrefs and the three scratch operands, over the four input blocks. -/
abbrev rB (c : Dev nD) (t : Fin cfg0.N) (h1 : t.val % 4 = 0) (h0 : t.val % 32 ≠ 0) (xs2 : Vec F S64x64 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t h0) (c1_of t h1) (nc2_of t (by omega)) (nc3_of t (by omega)) (iblk m c 0 t) (iblk m c 1 t) (iblk m c 2 t) (iblk m c 3 t) xs2

/-- Case C's run at point `t`: on the point's staging memrefs and the three scratch operands, over the four input blocks. -/
abbrev rC (c : Dev nD) (t : Fin cfg0.N) (h1 : t.val % 4 ≠ 0) (h2 : t.val % 4 ≠ 3) (xs0 : Vec F S1024x64 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t (by omega)) (nc1_of t h1) (nc2_of t h2) (nc3_of t (by omega)) (iblk m c 0 t) (iblk m c 1 t) (iblk m c 2 t) (iblk m c 3 t) xs0

/-- Case D's run at point `t`: on the point's staging memrefs and the three scratch operands, over the four input blocks. -/
abbrev rD (c : Dev nD) (t : Fin cfg0.N) (h2 : t.val % 4 = 3) (h3 : t.val % 32 ≠ 31) (xs0 : Vec F S1024x64 .f32) (xs1 : Vec F S1x1 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t (by omega)) (nc1_of t (by omega)) (c2_of t h2) (nc3_of t h3) (iblk m c 0 t) (iblk m c 1 t) (iblk m c 2 t) (iblk m c 3 t) xs0 xs1

/-- Case E's run at point `t`: on the point's staging memrefs and the three scratch operands, over the four input blocks. -/
abbrev rE (c : Dev nD) (t : Fin cfg0.N) (hE : t.val % 32 = 31) (xs0 : Vec F S1024x64 .f32) (xs1 : Vec F S1x1 .f32) (xs2 : Vec F S64x64 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (nc0_of t (by omega)) (nc1_of t (by omega)) (c2_of t (by omega)) (c3_of t hE) (iblk m c 0 t) (iblk m c 1 t) (iblk m c 2 t) (iblk m c 3 t) xs0 xs1 xs2

/-- After the first point: every scratch operand was stored whole, so nothing of what they held before remains. -/
def stA (c : Dev nD) (t : Fin cfg0.N) (hA : t.val % 32 = 0) : St F where
  o4 := VS0_1.read (Elt F) (VS0_1.writes (Elt F) VS0_1.junk (rA m c t hA ).2.1)
  o5 := VS0_2.read (Elt F) (VS0_2.writes (Elt F) VS0_2.junk (rA m c t hA ).2.2.1)
  s0 := VS0_0.read (Elt F) (VS0_0.writes (Elt F) VS0_0.junk (rA m c t hA ).1)
  s1 := VS0_1.read (Elt F) (VS0_1.writes (Elt F) VS0_1.junk (rA m c t hA ).2.1)
  s2 := VS0_2.read (Elt F) (VS0_2.writes (Elt F) VS0_2.junk (rA m c t hA ).2.2.1)

/-- After a point with k = 0, i > 0, over the state `p` the point before left: the running sum is kept. -/
def stB (c : Dev nD) (t : Fin cfg0.N) (h1 : t.val % 4 = 0) (h0 : t.val % 32 ≠ 0) (p : St F) : St F where
  o4 := p.s1
  o5 := VS0_2.read (Elt F) (VS0_2.writes (Elt F) VS0_2.junk (rB m c t h1 h0 p.s2).2.1)
  s0 := VS0_0.read (Elt F) (VS0_0.writes (Elt F) VS0_0.junk (rB m c t h1 h0 p.s2).1)
  s1 := p.s1
  s2 := VS0_2.read (Elt F) (VS0_2.writes (Elt F) VS0_2.junk (rB m c t h1 h0 p.s2).2.1)

/-- After a point with 0 < k < 3: only the row accumulator moves. -/
def stC (c : Dev nD) (t : Fin cfg0.N) (h1 : t.val % 4 ≠ 0) (h2 : t.val % 4 ≠ 3) (p : St F) : St F where
  o4 := p.s1
  o5 := p.s2
  s0 := VS0_0.read (Elt F) (VS0_0.writes (Elt F) VS0_0.junk (rC m c t h1 h2 p.s0).1)
  s1 := p.s1
  s2 := p.s2

/-- After a point with k = 3, i < 7: the row accumulator and the running sum move, the Gram matrix is kept. -/
def stD (c : Dev nD) (t : Fin cfg0.N) (h2 : t.val % 4 = 3) (h3 : t.val % 32 ≠ 31) (p : St F) : St F where
  o4 := VS0_1.read (Elt F) (VS0_1.writes (Elt F) VS0_1.junk (rD m c t h2 h3 p.s0 p.s1).2.1)
  o5 := p.s2
  s0 := VS0_0.read (Elt F) (VS0_0.writes (Elt F) VS0_0.junk (rD m c t h2 h3 p.s0 p.s1).1)
  s1 := VS0_1.read (Elt F) (VS0_1.writes (Elt F) VS0_1.junk (rD m c t h2 h3 p.s0 p.s1).2.1)
  s2 := p.s2

/-- After the last point: as for k = 3, and the result windows hold what was stored into them. -/
def stE (c : Dev nD) (t : Fin cfg0.N) (hE : t.val % 32 = 31) (p : St F) : St F where
  o4 := VO0_4.read (Elt F) (VO0_4.writes (Elt F) VO0_4.junk (rE m c t hE p.s0 p.s1 p.s2).1)
  o5 := VO0_5.read (Elt F) (VO0_5.writes (Elt F) VO0_5.junk (rE m c t hE p.s0 p.s1 p.s2).2.1)
  s0 := VS0_0.read (Elt F) (VS0_0.writes (Elt F) VS0_0.junk (rE m c t hE p.s0 p.s1 p.s2).2.2.1)
  s1 := VS0_1.read (Elt F) (VS0_1.writes (Elt F) VS0_1.junk (rE m c t hE p.s0 p.s1 p.s2).2.2.2.1)
  s2 := p.s2

/-- THE RECURSION over the points: the state after point `n`, from the state after point `n - 1`, by the case of `n`. -/
def outsAt0 (c : Dev nD) : (n : ℕ) → n < cfg0.N → St F
  | 0, hn => stA m c ⟨0, hn⟩ (Nat.zero_mod _)
  | n + 1, hn =>
    if h0 : (n + 1) % 32 = 0 then stA m c ⟨n + 1, hn⟩ h0
    else if h1 : (n + 1) % 4 = 0 then stB m c ⟨n + 1, hn⟩ h1 h0 (outsAt0 c n (Nat.lt_of_succ_lt hn))
    else if h3 : (n + 1) % 32 = 31 then stE m c ⟨n + 1, hn⟩ h3 (outsAt0 c n (Nat.lt_of_succ_lt hn))
    else if h2 : (n + 1) % 4 = 3 then stD m c ⟨n + 1, hn⟩ h2 h3 (outsAt0 c n (Nat.lt_of_succ_lt hn))
    else stC m c ⟨n + 1, hn⟩ h1 h2 (outsAt0 c n (Nat.lt_of_succ_lt hn))

theorem outsAt0_A (c : Dev nD) (t : Fin cfg0.N) (hA : t.val % 32 = 0) : outsAt0 m c t.val t.isLt = stA m c t hA := by
  obtain ⟨n, hn⟩ := t
  cases n with
  | zero => rfl
  | succ n => exact (dif_pos hA).trans rfl

theorem outsAt0_B (c : Dev nD) (t : Fin cfg0.N) (h1 : t.val % 4 = 0) (h0 : t.val % 32 ≠ 0) :
    outsAt0 m c t.val t.isLt = stB m c t h1 h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem outsAt0_C (c : Dev nD) (t : Fin cfg0.N) (h1 : t.val % 4 ≠ 0) (h2 : t.val % 4 ≠ 3) :
    outsAt0 m c t.val t.isLt = stC m c t h1 h2 (outsAt0 m c (t.val - 1) (Nat.lt_of_le_of_lt (Nat.sub_le _ _) t.isLt)) := by
  obtain ⟨n, hn⟩ := t
  cases n with
  | zero => exact absurd (Nat.zero_mod _) h1
  | succ n =>
    have h0 : ¬(n + 1) % 32 = 0 := fun h => h1 (by dsimp only at h1 ⊢; omega)
    have h3 : ¬(n + 1) % 32 = 31 := fun h => h2 (by dsimp only at h2 ⊢; omega)
    exact (dif_neg h0).trans ((dif_neg h1).trans ((dif_neg h3).trans ((dif_neg h2).trans rfl)))

theorem outsAt0_D (c : Dev nD) (t : Fin cfg0.N) (h2 : t.val % 4 = 3) (h3 : t.val % 32 ≠ 31) :
    outsAt0 m c t.val t.isLt = stD m c t h2 h3 (outsAt0 m c (t.val - 1) (Nat.lt_of_le_of_lt (Nat.sub_le _ _) t.isLt)) := by
  obtain ⟨n, hn⟩ := t
  cases n with
  | zero => exact absurd (show (0 : ℕ) % 4 = 3 from h2) (by decide)
  | succ n =>
    have h0 : ¬(n + 1) % 32 = 0 := fun h => by dsimp only at h2; omega
    have h1 : ¬(n + 1) % 4 = 0 := fun h => by dsimp only at h2; omega
    exact (dif_neg h0).trans ((dif_neg h1).trans ((dif_neg h3).trans ((dif_pos h2).trans rfl)))

theorem outsAt0_E (c : Dev nD) (t : Fin cfg0.N) (hE : t.val % 32 = 31) :
    outsAt0 m c t.val t.isLt = stE m c t hE (outsAt0 m c (t.val - 1) (Nat.lt_of_le_of_lt (Nat.sub_le _ _) t.isLt)) := by
  obtain ⟨n, hn⟩ := t
  cases n with
  | zero => exact absurd (show (0 : ℕ) % 32 = 31 from hE) (by decide)
  | succ n =>
    have h0 : ¬(n + 1) % 32 = 0 := fun h => by dsimp only at hE; omega
    have h1 : ¬(n + 1) % 4 = 0 := fun h => by dsimp only at hE; omega
    exact (dif_neg h0).trans ((dif_neg h1).trans ((dif_pos hE).trans rfl))

/-! ## The region invariant -/

/-- Before the first point: the three scratch operands at anything and the generator register at some state. Before
    point `n + 1`: each scratch operand at what point `n` left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2)) ∗ (∃ r, prngReg c r)) := by
  cases n with
  | zero => exact absurd rfl hz
  | succ n => rfl

/-! ## The pipeline's proof data -/

/-- The share at which each window holds its array: windows 1 and 2 both read F_ll and hold one half each. -/
def qs : Fin 6 → PosShare TreeShare := ![fullShare, fullShare.left, fullShare.right, fullShare, fullShare, fullShare]

/-- The proof data on core `c`: the arrays as the region finds them; after the body at point `t` each input window's
    buffer at its block and the result windows' at the recursion's components; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) : (dats m 0 c).q = qs := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the input windows hold their blocks; the point's number selects the case; the invariant
    hands the case's run each scratch operand at what the point before left and takes it back at this point's
    contents; a result window idle at the point is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hA : t.val % 32 = 0
  · -- the first point
    rw [Dat.leavesExact_idle (dats m 0 c) 4 t (idleAt0_4 t (nc3_of t (by omega))) (noFlush0_4 t (nc3_of t (by omega)))]
    rw [Dat.leavesExact_idle (dats m 0 c) 5 t (idleAt0_5 t (nc3_of t (by omega))) (noFlush0_5 t (nc3_of t (by omega)))]
    rw [outsAt0_A m c t hA]
    unfold stA; dsimp only
    have hz : t.val = 0 := by omega
    rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((rA m c t hA ).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverA_s0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverA_s1 c _ _ _ _ _ _ _ _ _ _ _ _ _ _ _ _ _ _ _ _ _ _ _ _ _ _ _)
        unfold owns; iexists _; isplitr
        swap; · iexact HS2
        ipureintro; exact View.read_writes_of_cover _ _ _ _ _ (coverA_s2 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val % 4 = 0
    · -- k = 0, i > 0
      have h0 : t.val % 32 ≠ 0 := hA
      rw [Dat.leavesExact_idle (dats m 0 c) 4 t (idleAt0_4 t (nc3_of t (by omega))) (noFlush0_4 t (nc3_of t (by omega)))]
      rw [Dat.leavesExact_idle (dats m 0 c) 5 t (idleAt0_5 t (nc3_of t (by omega))) (noFlush0_5 t (nc3_of t (by omega)))]
      rw [outsAt0_B m c t h1 h0]
      unfold stB; dsimp only
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rB m c t h1 h0 _).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      isplitl [HS2]; · iexact HS2
      iintro ⟨H0, H1, H2, H3, H4, H5, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB_s0 c _ _ _ _ _ _ _ _ _ _ _ _ _ _ _ _ _ _ _ _ _ _ _ _ _ _ _ _)
          isplitl [HS1]
          · iexact HS1
          unfold owns; iexists _; isplitr
          swap; · iexact HS2
          ipureintro; exact View.read_writes_of_cover _ _ _ _ _ (coverB_s2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · by_cases hE : t.val % 32 = 31
      · -- the last point
        rw [show (dats m 0 c).leavesExact 4 t = owns (c : Thread nD τ) (ms0_4 t) fullShare ((dats m 0 c).after 4 t) from by
          unfold Dat.leavesExact; rw [liveAt0_4 t (c3_of t hE)], after0_4]
        rw [show (dats m 0 c).leavesExact 5 t = owns (c : Thread nD τ) (ms0_5 t) fullShare ((dats m 0 c).after 5 t) from by
          unfold Dat.leavesExact; rw [liveAt0_5 t (c3_of t hE)], after0_5]
        rw [outsAt0_E m c t hE]
        unfold stE; dsimp only
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((rE m c t hE _ _ _).2.2.2.2  Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        iintro ⟨H0, H1, H2, H3, ⟨%eo4, H4⟩, ⟨%eo5, H5⟩, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (coverE_s0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (coverE_s1 c _ _ _ _ _ _ _ _ _ _ _ _ _ _ _ _ _ _ _ _ _ _ _ _ _ _ _ _ _ _)
            iexact HS2
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (coverE_o4 c _ _ _ _ _ _ _ _ _ _ _ _ _ _ _ _ _ _ _ _ _ _ _ _ _ _ _ _ _ _)
        unfold owns; iexists _; isplitr
        swap; · iexact H5
        ipureintro; exact View.read_writes_of_cover _ _ _ _ _ (coverE_o5 c _ _ _ _ _ _ _ _ _ _ _ _ _ _ _ _ _ _ _ _ _ _ _ _ _ _ _ _ _ _)
      · by_cases h2 : t.val % 4 = 3
        · -- k = 3, i < 7
          have h3 : t.val % 32 ≠ 31 := hE
          rw [Dat.leavesExact_idle (dats m 0 c) 4 t (idleAt0_4 t (nc3_of t (by omega))) (noFlush0_4 t (nc3_of t (by omega)))]
          rw [Dat.leavesExact_idle (dats m 0 c) 5 t (idleAt0_5 t (nc3_of t (by omega))) (noFlush0_5 t (nc3_of t (by omega)))]
          rw [outsAt0_D m c t h2 h3]
          unfold stD; dsimp only
          have hz : t.val ≠ 0 := by omega
          rw [PhiS_castSucc m c t, PhiS_pos m c _ _ hz]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((rD m c t h2 h3 _ _).2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, HS2⟩
          isplitl [HS0 HS1 HS2 Hg]
          · isplitl [HS0 HS1 HS2]
            · isplitl [HS0]
              · unfold owns; iexists _; isplitr
                swap; · iexact HS0
                ipureintro; exact View.read_writes_of_cover _ _ _ _ _ (coverD_s0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (coverD_s1 c _ _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexists _; iexact H4
          iexists _; iexact H5
        · -- 0 < k < 3
          rw [Dat.leavesExact_idle (dats m 0 c) 4 t (idleAt0_4 t (nc3_of t (by omega))) (noFlush0_4 t (nc3_of t (by omega)))]
          rw [Dat.leavesExact_idle (dats m 0 c) 5 t (idleAt0_5 t (nc3_of t (by omega))) (noFlush0_5 t (nc3_of t (by omega)))]
          rw [outsAt0_C m c t h1 h2]
          unfold stC; dsimp only
          have hz : t.val ≠ 0 := by omega
          rw [PhiS_castSucc m c t, PhiS_pos m c _ _ hz]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((rC m c t h1 h2 _).2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, HS1, HS2⟩
          isplitl [HS0 HS1 HS2 Hg]
          · isplitl [HS0 HS1 HS2]
            · isplitl [HS0]
              · unfold owns; iexists _; isplitr
                swap; · iexact HS0
                ipureintro; exact View.read_writes_of_cover _ _ _ _ _ (coverC_s0 c _ _ _ _ _ _ _ _ _ _ _ _ _ _ _ _ _ _ _ _ _ _ _ _ _ _ _ _)
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexists _; iexact H4
          iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch operands back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KI.Tail.lean ====
/- The six host operations after the region, as one function of the two results and λ:
   reshape(out₀) + λ · Σ_{p,q} out₁[p,q]². -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scalar the host tail leaves in the program's result buffer. -/
def tailTerm (o4 : Vec F S1x1 .f32) (o5 : Vec F S64x64 .f32) (lam : Vec F S_ .f32) : Vec F S_ .f32 :=
  addf (shapeCast S_ o4 shapeCasts_S1x1_S_)
    (mulf lam (Host.reduceAdd (mulf o5 o5) (constant S_ .f32 0x00000000#32) reducesTo_S64x64_S_d0_1 h_S_))

end Cert.KernelIdeal.Hand

end
-- ==== Proof.KI.Launch.lean ====
/- The launch of the loss kernel's region and the six host operations after it. Two of the six windows read the
   same array F_ll: its full share is dealt to them in halves when the region is entered and joined again when it is
   left, and the host operations then run over the five distinct arrays and the buffers that bypass the region. -/
import proofs.«110513_j575525618299_1_alg».proof.Proof.KI.Frame
import proofs.«110513_j575525618299_1_alg».proof.Proof.KI.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays as a chain: two windows read the rows of F_ll, each at one half of its share -/

/-- The pipeline's arrays, window by window: Θ whole, F_ll at the left half for its 2048-row window and at the right
    half for its 1024-row window, F_ul whole, the two results whole. -/
theorem arrays_chain {c : Dev nD} (dat : Dat τ (Elt F) Unit ℕ (UR sig nD τ) ℕ cfg0 c)
    (h0 : dat.q 0 = fullShare) (h1 : dat.q 1 = fullShare.left) (h2 : dat.q 2 = fullShare.right) (h3 : dat.q 3 = fullShare)
    (Fw : (w : Fin cfg0.W) → Buf (Elt F) ((cfg0.win w).arr.view.loc (c.tc : Thread nD τ))) :
    (dat.arrays Fw : sProp 𝕄) = iprop(
      (((c : Thread nD τ).loc main_arg2) ↦{fullShare} Fw 0) ∗ (((c : Thread nD τ).loc main_arg0) ↦{fullShare.left} Fw 1)
      ∗ (((c : Thread nD τ).loc main_arg0) ↦{fullShare.right} Fw 2) ∗ (((c : Thread nD τ).loc main_arg1) ↦{fullShare} Fw 3)
      ∗ (((c : Thread nD τ).loc main_v0_0) ↦{fullShare} Fw 4) ∗ (((c : Thread nD τ).loc main_v0_1) ↦{fullShare} Fw 5)) := by
  have e : (fun w : Fin cfg0.W => ((cfg0.win w).arr.view.loc (c.tc : Thread nD τ) ↦[(cfg0.win w).arr.view.set]{dat.share w} Fw w : sProp 𝕄))
      = fun w => (((c.tc : Thread nD τ).loc (Pipeline.arrRef spec0 w)) ↦{dat.share w} Fw w) :=
    funext fun w => by rw [(arr_whole0 w).set_eq_univ]
  unfold Dat.arrays
  rw [e, bigSep_W0]
  rw [show dat.share 0 = fullShare from h0, show dat.share 1 = fullShare.left from h1, show dat.share 2 = fullShare.right from h2,
    show dat.share 3 = fullShare from h3, show dat.share 4 = fullShare from rfl, show dat.share 5 = fullShare from rfl]

/-- The five distinct buffers behind the six windows, each whole. -/
theorem arrBufs_chain (c : Dev nD) (Vv : (b : Ref sig .tc) → Buf (Elt F) ((c : Thread nD τ).loc b)) :
    (Pipeline.arrBufs spec0 c Vv : sProp 𝕄) = iprop(
      (((c : Thread nD τ).loc main_arg2) ↦{fullShare} Vv main_arg2) ∗ (((c : Thread nD τ).loc main_arg0) ↦{fullShare} Vv main_arg0)
      ∗ (((c : Thread nD τ).loc main_arg1) ↦{fullShare} Vv main_arg1) ∗ (((c : Thread nD τ).loc main_v0_0) ↦{fullShare} Vv main_v0_0)
      ∗ (((c : Thread nD τ).loc main_v0_1) ↦{fullShare} Vv main_v0_1)) := by
  unfold Pipeline.arrBufs
  exact bigSep_eq_bigSepL_of_eq [main_arg2, main_arg0, main_arg1, main_v0_0, main_v0_1] (by decide) (by decide) _

/-! ## The five windows with distinct arrays -/

/-- Every window but the second reader of F_ll. -/
abbrev σ5 : Fin 5 → Fin 6 := ![0, 1, 3, 4, 5]
/-- The family of those five windows: its arrays are pairwise distinct and are all the arrays of the six. -/
abbrev win5 : Fin 5 → Pipeline.WinSpec sig grid0.rank := fun w => spec0 (σ5 w)

theorem win5_inj : Function.Injective (Pipeline.arrRef win5) := by decide
theorem img5 : Finset.univ.image (Pipeline.arrRef win5) = Finset.univ.image (Pipeline.arrRef spec0) := by decide

theorem bigSep_W5 {M : Type} [URA M] (Φ : Fin 5 → sProp M) :
    bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

/-- The five arrays whole, as a chain. -/
theorem arrPts5_chain (c : Dev nD) (A : (w : Fin 5) → Buf (Elt F) ((win5 w).arr.view.loc (c.tc : Thread nD τ))) :
    (Pipeline.arrPts (Ix := Unit) (Name := ℕ) (U := UR sig nD τ) (Lvl := ℕ) win5 c A : sProp 𝕄) = iprop(
      (((c : Thread nD τ).loc main_arg2) ↦{fullShare} A 0) ∗ (((c : Thread nD τ).loc main_arg0) ↦{fullShare} A 1)
      ∗ (((c : Thread nD τ).loc main_arg1) ↦{fullShare} A 2) ∗ (((c : Thread nD τ).loc main_v0_0) ↦{fullShare} A 3)
      ∗ (((c : Thread nD τ).loc main_v0_1) ↦{fullShare} A 4)) := by
  unfold Pipeline.arrPts
  rw [bigSep_W5]
  rfl

/-- The buffers that bypass the region are the same for the five windows as for the six. -/
theorem unscopedRestP5 (c : Dev nD) (Vv : (b : Ref sig .tc) → Buf (Elt F) ((c : Thread nD τ).loc b)) :
    (Pipeline.unscopedRestP Pipeline.Prefetch.none win5 c Vv : sProp 𝕄) = Pipeline.unscopedRestP Pipeline.Prefetch.none spec0 c Vv := by
  unfold Pipeline.unscopedRestP
  rw [img5]

theorem restRefsP5 : Pipeline.restRefsP sig Pipeline.Prefetch.none win5 = Pipeline.restRefsP sig Pipeline.Prefetch.none spec0 := by
  unfold Pipeline.restRefsP Pipeline.restRefs
  rw [img5]

/-! ## The six host operations after the region -/

theorem sfx_sub : ∀ ops ∈ ([hostOps1] : List (List (HloOp τ sig (Elt F)))), ∀ op ∈ ops,
    op.bufs ⊆ Pipeline.tailRefs sig Pipeline.Prefetch.none win5 := by
  rw [Pipeline.tailRefs_none win5 (fun w => winFacts₀0.arr_unscoped (σ5 w))]
  intro ops hops op hop
  rw [List.mem_singleton] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp hostOps1_fresh) op hop

/-- The operations write the six buffers after the results, none of which is an array of the pipeline. -/
theorem sfx_keeps : ∀ ops ∈ ([hostOps1] : List (List (HloOp τ sig (Elt F)))), ∀ op ∈ ops,
    ∀ w, Proc.devRef .tc (Pipeline.arrRef win5 w) ∉ op.writes := by
  intro ops hops op hop
  rw [List.mem_singleton] at hops
  subst hops
  simp only [hostOps1, List.mem_cons, List.mem_nil_iff, or_false] at hop
  rcases hop with rfl | rfl | rfl | rfl | rfl | rfl
  all_goals
    intro w
    fin_cases w <;> simp only [StableHlo.nullary_writes, StableHlo.binary_writes, StableHlo.reshape_writes, Finset.mem_singleton] <;>
      exact StableHlo.devRef_ne_of_ne (by decide)

/-! ## The arrays at the region's entry and exit -/

/-- The five arrays at the region's exit. -/
abbrev A5 (c : Dev nD) : (w : Fin 5) → Buf (Elt F) ((win5 w).arr.view.loc (c.tc : Thread nD τ)) :=
  fun w => (dats m 0 c).arrAt (σ5 w) cfg0.N

/-- Both readers of F_ll find it, and leave it, at its entry contents. -/
theorem arrAt_2_eq_1 (c : Dev nD) : (dats m 0 c).arrAt 2 cfg0.N = (dats m 0 c).arrAt 1 cfg0.N := by
  rw [(dats m 0 c).arrAt_in 2 rfl cfg0.N, (dats m 0 c).arrAt_in 1 rfl cfg0.N]
  rfl

/-- At the launch the five buffers, F_ll's full share dealt in halves to its two readers, are the pipeline's arrays. -/
theorem hsplit0 (c : Dev nD) :
    (Pipeline.arrBufs spec0 c (V m c) : sProp 𝕄) ⊢ (dats m 0 c).arrays ((dats m 0 c).arrAt · 0) := by
  rw [arrBufs_chain, arrays_chain (dats m 0 c) rfl rfl rfl rfl]
  iintro ⟨H2, H0, H1, H4, H5⟩
  ihave H0 := (pointsTo_share (PosShare.mem_left_op_right fullShare)).1 $$ H0
  icases H0 with ⟨H0l, H0r⟩
  isplitl [H2]; · iexact H2
  isplitl [H0l]; · iexact H0l
  isplitl [H0r]; · iexact H0r
  isplitl [H1]; · iexact H1
  isplitl [H4]; · iexact H4
  iexact H5

/-- The five arrays at their exit contents, as a chain. -/
theorem arrPts5_A5 (c : Dev nD) :
    (Pipeline.arrPts (Ix := Unit) (Name := ℕ) (U := UR sig nD τ) (Lvl := ℕ) win5 c (A5 m c) : sProp 𝕄) = iprop(
      (((c : Thread nD τ).loc main_arg2) ↦{fullShare} (dats m 0 c).arrAt 0 cfg0.N)
      ∗ (((c : Thread nD τ).loc main_arg0) ↦{fullShare} (dats m 0 c).arrAt 1 cfg0.N)
      ∗ (((c : Thread nD τ).loc main_arg1) ↦{fullShare} (dats m 0 c).arrAt 3 cfg0.N)
      ∗ (((c : Thread nD τ).loc main_v0_0) ↦{fullShare} (dats m 0 c).arrAt 4 cfg0.N)
      ∗ (((c : Thread nD τ).loc main_v0_1) ↦{fullShare} (dats m 0 c).arrAt 5 cfg0.N)) := by
  rw [arrPts5_chain]
  rfl

/-- The full share of F_ll is its two halves. -/
theorem share_arg0 (c : Dev nD) :
    ((((c : Thread nD τ).loc main_arg0) ↦{fullShare} (dats m 0 c).arrAt 1 cfg0.N) : sProp 𝕄)
      ⊣⊢ iprop((((c : Thread nD τ).loc main_arg0) ↦{fullShare.left} (dats m 0 c).arrAt 1 cfg0.N)
          ∗ (((c : Thread nD τ).loc main_arg0) ↦{fullShare.right} (dats m 0 c).arrAt 1 cfg0.N)) :=
  pointsTo_share (PosShare.mem_left_op_right fullShare)

/-- At the region's exit the two halves of F_ll join: the pipeline's arrays are the five buffers whole. -/
theorem arrays_to5 (c : Dev nD) :
    ((dats m 0 c).arrays ((dats m 0 c).arrAt · cfg0.N) : sProp 𝕄)
      ⊢ Pipeline.arrPts (Ix := Unit) (Name := ℕ) (U := UR sig nD τ) (Lvl := ℕ) win5 c (A5 m c) := by
  rw [arrays_chain (dats m 0 c) rfl rfl rfl rfl, arrPts5_A5]
  rw [arrAt_2_eq_1]
  iintro ⟨H2, H0l, H0r, H1, H4, H5⟩
  ihave H0 := (share_arg0 m c).2 $$ [H0l H0r]
  · isplitl [H0l] <;> iassumption
  isplitl [H2]; · iexact H2
  isplitl [H0]; · iexact H0
  isplitl [H1]; · iexact H1
  isplitl [H4]; · iexact H4
  iexact H5

/-- And back. -/
theorem arrays_from5 (c : Dev nD) :
    (Pipeline.arrPts (Ix := Unit) (Name := ℕ) (U := UR sig nD τ) (Lvl := ℕ) win5 c (A5 m c) : sProp 𝕄)
      ⊢ (dats m 0 c).arrays ((dats m 0 c).arrAt · cfg0.N) := by
  rw [arrays_chain (dats m 0 c) rfl rfl rfl rfl, arrPts5_A5]
  rw [arrAt_2_eq_1]
  iintro ⟨H2, H0, H1, H4, H5⟩
  ihave H0 := (share_arg0 m c).1 $$ H0
  icases H0 with ⟨H0l, H0r⟩
  isplitl [H2]; · iexact H2
  isplitl [H0l]; · iexact H0l
  isplitl [H0r]; · iexact H0r
  isplitl [H1]; · iexact H1
  isplitl [H4]; · iexact H4
  iexact H5

/-! ## What the host operations leave -/

/-- The core's buffers when the region is left: the five arrays at their exit contents, the rest as at the entry. -/
abbrev W5 (c : Dev nD) : Valuation τ sig (Elt F) := Pipeline.withArrays win5 c (V0 m c) (A5 m c)

/-- What each buffer holds after the six operations. -/
abbrev afterTail5 (c : Dev nD) (b : Ref sig .tc) : Buf (Elt F) ((c : Thread nD τ).loc b) :=
  StableHlo.after ([hostOps1] : List (List (HloOp τ sig (Elt F)))).flatten (W5 m c) (Proc.devRef .tc b)

/-- The program's result buffer holds the tail's scalar of the two results at the region's exit and of λ. -/
theorem after_v5 (c : Dev nD) :
    afterTail5 m c main_v5
      = tailTerm ((dats m 0 c).arrAt 4 cfg0.N) ((dats m 0 c).arrAt 5 cfg0.N) (m ((c : Thread nD τ).loc main_arg3)) := by
  show StableHlo.after hostOps1 (W5 m c) (Proc.devRef .tc main_v5) = _
  after_results
  rw [show W5 m c (Proc.devRef .tc main_v0_0) = A5 m c 3 from Pipeline.withArrays_arr win5 win5_inj c _ _ 3,
    show W5 m c (Proc.devRef .tc main_v0_1) = A5 m c 4 from Pipeline.withArrays_arr win5 win5_inj c _ _ 4,
    show W5 m c (Proc.devRef .tc main_arg3) = V0 m c (Proc.devRef .tc main_arg3) from
      Pipeline.withArrays_of_ne win5 c _ _ main_arg3 (by decide)]
  rfl

/-- λ's buffer is not written. -/
theorem after_arg3 (c : Dev nD) : afterTail5 m c main_arg3 = m ((c : Thread nD τ).loc main_arg3) := by
  show StableHlo.after hostOps1 (W5 m c) (Proc.devRef .tc main_arg3) = _
  after_results
  exact Pipeline.withArrays_of_ne win5 c _ _ main_arg3 (by decide)

theorem mem_rest_v5 : main_v5 ∈ Pipeline.restRefsP sig Pipeline.Prefetch.none spec0 :=
  Finset.mem_sdiff.mpr ⟨Pipeline.mem_restRefs_of main_v5 rfl (by decide), fun h => by
    obtain ⟨k, -, -⟩ := Finset.mem_image.mp h; exact k.elim0⟩
theorem mem_rest_arg3 : main_arg3 ∈ Pipeline.restRefsP sig Pipeline.Prefetch.none spec0 :=
  Finset.mem_sdiff.mpr ⟨Pipeline.mem_restRefs_of main_arg3 rfl (by decide), fun h => by
    obtain ⟨k, -, -⟩ := Finset.mem_image.mp h; exact k.elim0⟩

/-! ## The launch -/

set_option maxHeartbeats 1600000 in
set_option backward.isDefEq.respectTransparency.types false in
/-- @main from the launch: the region, its six windows on five arrays, then the six host operations. The result buffer
    ends at the tail's scalar of the two results the last point wrote and of λ; the four arguments are unchanged. -/
theorem run_main : θ_run defs (onTc (τ := τ) (main (F := F))) ⟨m, fun _ => 0, ρ⟩ (fun r => ∀ c : Dev nD,
      r.2.mem ((c.tc : Thread nD τ).loc main_v5) = tailTerm ((dats m 0 c).arrAt 4 cfg0.N) ((dats m 0 c).arrAt 5 cfg0.N) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact Pipeline.θ_run_region_pf_tail (Ix := Unit) (Name := ℕ) (U := UR sig nD τ) (Lvl := ℕ)
    (pcfgs (F := F)) (fun q => (cfgs q).toPCfg_adm) (dats m) () cellOf_inj 0 winFacts₀0 (Pipeline.OwnSemFacts.none spec0)
    (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none)
    (hsplit := fun c => hsplit0 m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (afterTail5 m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have h := Pipeline.tail_seqs (Ix := Unit) (Name := ℕ) (U := UR sig nD τ) (Lvl := ℕ) (pcfgs (F := F)) defs₀ Variants.none
        Pipeline.Prefetch.none win5 win5_inj c (V0 m c) (A5 m c) [hostOps1] sfx_sub sfx_fresh sfx_keeps Q'
      rw [unscopedRestP5, unscopedRestP5] at h
      refine BIBase.Entails.trans ?_ h
      iintro ⟨Hk, Hb, Ha, Hz⟩
      isplitl [Hk]
      · iintro ⟨Ha, Hz⟩
        iapply Hk
        isplitl [Ha]
        · iapply (arrays_from5 m c); iexact Ha
        · iexact Hz
      isplitl [Hb]; · iexact Hb
      isplitl [Ha]
      · iapply (arrays_to5 m c); iexact Ha
      iexact Hz)
    (QY := fun c s => ∀ b ∈ Pipeline.restRefsP sig Pipeline.Prefetch.none spec0, s.mem ((c.tc : Thread nD τ).loc b) = afterTail5 m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (afterTail5 m c) s')
      isplitl [HU] <;> iassumption)
    (hQ := fun s h c => by
      obtain ⟨hw, -, hr⟩ := h c
      refine ⟨(hr main_v5 mem_rest_v5).trans (after_v5 m c), ?_, ?_, ?_, (hr main_arg3 mem_rest_arg3).trans (after_arg3 m c)⟩
      · exact (hw 1).trans ((dats m 0 c).arrAt_in 1 rfl cfg0.N)
      · exact (hw 3).trans ((dats m 0 c).arrAt_in 3 rfl cfg0.N)
      · exact (hw 0).trans ((dats m 0 c).arrAt_in 0 rfl cfg0.N))

end Cert.KernelIdeal.Hand

end
-- ==== Proof.KI.Final.lean ====
/- The two result arrays after the run. Each result window has one block, its whole array, at block index (0, 0),
   and writes it back at the last point only; so after the write-backs each array holds what the last point left in
   the window's staging buffer. -/
import proofs.«110513_j575525618299_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of the 8 × 4 grid: t = 4 · 7 + 3. -/
abbrev tLast : Fin cfg0.N := ⟨31, by rw [show cfg0.N = 32 from N_0]; decide⟩

/-- The two result windows' index maps are constant zero: each has one block, its whole array. -/
theorem idx4_zero : ∀ (t : Fin cfg0.N) (a : Fin 2), win0_4.index t a = 0 :=
  (by decide +kernel : ∀ (t : Fin grid0.N) (a : Fin 2), win0_4.index t a = 0)
theorem idx5_zero : ∀ (t : Fin cfg0.N) (a : Fin 2), win0_5.index t a = 0 :=
  (by decide +kernel : ∀ (t : Fin grid0.N) (a : Fin 2), win0_5.index t a = 0)

/-- A point that writes a result window back is the last point. -/
theorem eq_tLast_of_flush4 (t : Fin cfg0.N) (hf : (cfg0.win 4).flush t = true) : t = tLast := by
  have hN : cfg0.N = 32 := N_0
  have h1 := (flush0_4 t).mp hf
  have h2 := t.isLt
  exact Fin.ext (show t.val = 31 by omega)

section generic
variable {c : Dev nD} (dat : Dat τ (Elt F) Unit ℕ (UR sig nD τ) ℕ cfg0 c)

/-- An element of window 4's block sits in the array at its own index. -/
theorem blk4_emb (t : Fin cfg0.N) (y : S1x1.Idx) : ((cfg0.win 4).blk t).view.emb y = y := by
  funext a
  apply Fin.ext
  exact win0_4.rect_emb_val_of_index_zero t a (idx4_zero t a) y

theorem flushed4_of (G : Vec F S1x1 .f32) (h : dat.after 4 tLast = G) (t : Fin cfg0.N) (hf : (cfg0.win 4).flush t = true) :
    dat.flushed 4 t = ((cfg0.win 4).blk t).view.read (Elt F) G := by
  obtain rfl := eq_tLast_of_flush4 t hf
  funext y
  rw [View.read_apply, blk4_emb]
  show dat.after 4 tLast y = G y
  rw [h]

/-- Every index of the 1 × 1 array is in the block of any point: the block is the array. -/
theorem mem_blk4 (t : Fin cfg0.N) (i : S1x1.Idx) : i ∈ ((cfg0.win 4).blk t).view.set := by
  have h := ((cfg0.win 4).blk t).view.emb_mem_set i
  rwa [blk4_emb] at h

/-- The first result array after the run is what the last point left in window 4's staging buffer. -/
theorem arrAt4_of (G : Vec F S1x1 .f32) (h : dat.after 4 tLast = G) : dat.arrAt 4 cfg0.N = G :=
  dat.arrAt_eq_of_cover 4 G (flushed4_of dat G h) fun i => ⟨tLast, (flush0_4 tLast).mpr rfl, mem_blk4 tLast i⟩

theorem eq_tLast_of_flush5 (t : Fin cfg0.N) (hf : (cfg0.win 5).flush t = true) : t = tLast := by
  have hN : cfg0.N = 32 := N_0
  have h1 := (flush0_5 t).mp hf
  have h2 := t.isLt
  exact Fin.ext (show t.val = 31 by omega)

/-- An element of window 5's block sits in the array at its own index. -/
theorem blk5_emb (t : Fin cfg0.N) (y : S64x64.Idx) : ((cfg0.win 5).blk t).view.emb y = y := by
  funext a
  apply Fin.ext
  exact win0_5.rect_emb_val_of_index_zero t a (idx5_zero t a) y

theorem flushed5_of (G : Vec F S64x64 .f32) (h : dat.after 5 tLast = G) (t : Fin cfg0.N) (hf : (cfg0.win 5).flush t = true) :
    dat.flushed 5 t = ((cfg0.win 5).blk t).view.read (Elt F) G := by
  obtain rfl := eq_tLast_of_flush5 t hf
  funext y
  rw [View.read_apply, blk5_emb]
  show dat.after 5 tLast y = G y
  rw [h]

theorem mem_blk5 (t : Fin cfg0.N) (i : S64x64.Idx) : i ∈ ((cfg0.win 5).blk t).view.set := by
  have h := ((cfg0.win 5).blk t).view.emb_mem_set i
  rwa [blk5_emb] at h

/-- The second result array after the run is what the last point left in window 5's staging buffer. -/
theorem arrAt5_of (G : Vec F S64x64 .f32) (h : dat.after 5 tLast = G) : dat.arrAt 5 cfg0.N = G :=
  dat.arrAt_eq_of_cover 5 G (flushed5_of dat G h) fun i => ⟨tLast, (flush0_5 tLast).mpr rfl, mem_blk5 tLast i⟩

end generic

/-! ## The two result arrays after the run -/

/-- The 1 × 1 result array ends holding the last point's first result component. -/
theorem final4 (c : Dev nD) :
    (dats m 0 c).arrAt 4 cfg0.N = (outsAt0 m c 31 (by rw [show cfg0.N = 32 from N_0]; decide)).o4 :=
  arrAt4_of (dats m 0 c) _ (after0_4 m c tLast)

/-- The 64 × 64 result array ends holding the last point's second result component. -/
theorem final5 (c : Dev nD) :
    (dats m 0 c).arrAt 5 cfg0.N = (outsAt0 m c 31 (by rw [show cfg0.N = 32 from N_0]; decide)).o5 :=
  arrAt5_of (dats m 0 c) _ (after0_5 m c tLast)

end Cert.KernelIdeal.Hand

end
-- ==== Proof.KI.Blocks.lean ====
/- The four input blocks of a grid point at their literal shapes. -/
import proofs.«110513_j575525618299_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 1024 × 2048 tile (i, k) of Θ at point t = 4 i + k. -/
abbrev xb0 (c : Dev nD) (t : Fin cfg0.N) : Vec F S1024x2048 .f32 := iblk m c 0 t
/-- The 2048 rows of F_ll of contraction tile k. -/
abbrev xb1 (c : Dev nD) (t : Fin cfg0.N) : Vec F S2048x64 .f32 := iblk m c 1 t
/-- The 1024 rows of F_ll of row tile i. -/
abbrev xb2 (c : Dev nD) (t : Fin cfg0.N) : Vec F S1024x64 .f32 := iblk m c 2 t
/-- The 1024 rows of F_ul of row tile i. -/
abbrev xb3 (c : Dev nD) (t : Fin cfg0.N) : Vec F S1024x64 .f32 := iblk m c 3 t

end Cert.KernelIdeal.Hand

end
-- ==== Proof.KI.Pieces.lean ====
/- What each control case of the loss kernel's body leaves in the row accumulator, the running sum, the Gram matrix and
   the two result windows, as the body's arithmetic applied to the point's four input blocks and to what the point before
   left: every store of the body goes through the whole buffer, so the last store into a buffer decides its contents, and a
   load after a store in the same point reads what was stored. -/
import proofs.«110513_j575525618299_1_alg».proof.Proof.KI.Frame
import proofs.«110513_j575525618299_1_alg».proof.Proof.KI.Blocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A whole scratch operand reads what it holds -/

theorem read_sc0 (h : (scM0_0 : Memref sig .tc .vmem S1024x64 .f32).IsWhole) (X : Vec F S1024x64 .f32) :
    View.read (Elt F) (View.whole cc0_scratch0) (h.unread X) = X := h.read_unread X
theorem read_sc1 (h : (scM0_1 : Memref sig .tc .vmem S1x1 .f32).IsWhole) (X : Vec F S1x1 .f32) :
    View.read (Elt F) (View.whole cc0_scratch1) (h.unread X) = X := h.read_unread X
theorem read_sc2 (h : (scM0_2 : Memref sig .tc .vmem S64x64 .f32).IsWhole) (X : Vec F S64x64 .f32) :
    View.read (Elt F) (View.whole cc0_scratch2) (h.unread X) = X := h.read_unread X

/-- The offset of the rectangle every load and store of the body goes through is zero on both axes. -/
theorem hz2 : (![0, 0] : Fin 2 → Nat) = fun _ => 0 := funext fun a => by fin_cases a <;> rfl

/-! ## 0 < k < 3 -/

theorem stC_s0 (c : Dev nD) (t : Fin cfg0.N) (h1 : t.val % 4 ≠ 0) (h2 : t.val % 4 ≠ 3) (p : St F) :
    (stC m c t h1 h2 p).s0 = k0_pay5 (xb0 m c t) (xb1 m c t) p.s0 := by
  unfold stC; dsimp only
  rw [View.read_writes_eq_canon _ _ _ (coverC_s0 c _ _ _ _ _ _ _ _ _ _ _ _ _ _ _ _ _ _ _ _ _ _ _ _ _ _ _ _)]
  unfold kernelRun0_C
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stC_s1 (c : Dev nD) (t : Fin cfg0.N) (h1 : t.val % 4 ≠ 0) (h2 : t.val % 4 ≠ 3) (p : St F) :
    (stC m c t h1 h2 p).s1 = p.s1 := rfl

theorem stC_s2 (c : Dev nD) (t : Fin cfg0.N) (h1 : t.val % 4 ≠ 0) (h2 : t.val % 4 ≠ 3) (p : St F) :
    (stC m c t h1 h2 p).s2 = p.s2 := rfl

/-! ## k = 3, i < 7 -/

theorem stD_s0 (c : Dev nD) (t : Fin cfg0.N) (h2 : t.val % 4 = 3) (h3 : t.val % 32 ≠ 31) (p : St F) :
    (stD m c t h2 h3 p).s0 = k0_pay5 (xb0 m c t) (xb1 m c t) p.s0 := by
  unfold stD; dsimp only
  rw [View.read_writes_eq_canon _ _ _ (coverD_s0 c _ _ _ _ _ _ _ _ _ _ _ _ _ _ _ _ _ _ _ _ _ _ _ _ _ _ _ _ _)]
  unfold kernelRun0_D
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stD_s1 (c : Dev nD) (t : Fin cfg0.N) (h2 : t.val % 4 = 3) (h3 : t.val % 32 ≠ 31) (p : St F) :
    (stD m c t h2 h3 p).s1 = k0_pay6 (k0_pay5 (xb0 m c t) (xb1 m c t) p.s0) (xb2 m c t) p.s1 := by
  unfold stD; dsimp only
  rw [View.read_writes_eq_canon _ _ _ (coverD_s1 c _ _ _ _ _ _ _ _ _ _ _ _ _ _ _ _ _ _ _ _ _ _ _ _ _ _ _ _ _)]
  unfold kernelRun0_D
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stD_s2 (c : Dev nD) (t : Fin cfg0.N) (h2 : t.val % 4 = 3) (h3 : t.val % 32 ≠ 31) (p : St F) :
    (stD m c t h2 h3 p).s2 = p.s2 := rfl

/-! ## The last point -/

theorem stE_s0 (c : Dev nD) (t : Fin cfg0.N) (hE : t.val % 32 = 31) (p : St F) :
    (stE m c t hE p).s0 = k0_pay5 (xb0 m c t) (xb1 m c t) p.s0 := by
  unfold stE; dsimp only
  rw [View.read_writes_eq_canon _ _ _ (coverE_s0 c _ _ _ _ _ _ _ _ _ _ _ _ _ _ _ _ _ _ _ _ _ _ _ _ _ _ _ _ _ _)]
  unfold kernelRun0_E
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stE_s1 (c : Dev nD) (t : Fin cfg0.N) (hE : t.val % 32 = 31) (p : St F) :
    (stE m c t hE p).s1 = k0_pay6 (k0_pay5 (xb0 m c t) (xb1 m c t) p.s0) (xb2 m c t) p.s1 := by
  unfold stE; dsimp only
  rw [View.read_writes_eq_canon _ _ _ (coverE_s1 c _ _ _ _ _ _ _ _ _ _ _ _ _ _ _ _ _ _ _ _ _ _ _ _ _ _ _ _ _ _)]
  unfold kernelRun0_E
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stE_s2 (c : Dev nD) (t : Fin cfg0.N) (hE : t.val % 32 = 31) (p : St F) :
    (stE m c t hE p).s2 = p.s2 := rfl

/-- The first result is the running sum just stored, loaded back. -/
theorem stE_o4 (c : Dev nD) (t : Fin cfg0.N) (hE : t.val % 32 = 31) (p : St F) :
    (stE m c t hE p).o4 = k0_pay6 (k0_pay5 (xb0 m c t) (xb1 m c t) p.s0) (xb2 m c t) p.s1 := by
  unfold stE; dsimp only
  rw [View.read_writes_eq_canon _ _ _ (coverE_o4 c _ _ _ _ _ _ _ _ _ _ _ _ _ _ _ _ _ _ _ _ _ _ _ _ _ _ _ _ _ _)]
  unfold kernelRun0_E
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

/-- The second result is the Gram matrix as the point found it. -/
theorem stE_o5 (c : Dev nD) (t : Fin cfg0.N) (hE : t.val % 32 = 31) (p : St F) :
    (stE m c t hE p).o5 = p.s2 := by
  unfold stE; dsimp only
  rw [View.read_writes_eq_canon _ _ _ (coverE_o5 c _ _ _ _ _ _ _ _ _ _ _ _ _ _ _ _ _ _ _ _ _ _ _ _ _ _ _ _ _ _)]
  unfold kernelRun0_E
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

/-! ## k = 0, i > 0 -/

theorem stB_s0 (c : Dev nD) (t : Fin cfg0.N) (h1 : t.val % 4 = 0) (h0 : t.val % 32 ≠ 0) (p : St F) :
    (stB m c t h1 h0 p).s0 = k0_pay5 (xb0 m c t) (xb1 m c t) (k0_pay3 (F := F)) := by
  unfold stB; dsimp only
  rw [View.read_writes_eq_canon _ _ _ (coverB_s0 c _ _ _ _ _ _ _ _ _ _ _ _ _ _ _ _ _ _ _ _ _ _ _ _ _ _ _ _)]
  unfold kernelRun0_B
  dsimp only; sl_unfold_words
  rw [View.canon_cons_unit_zero (S := S1024x64) hz2, View.readCov_unit_zero (S := S1024x64) _ hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stB_s1 (c : Dev nD) (t : Fin cfg0.N) (h1 : t.val % 4 = 0) (h0 : t.val % 32 ≠ 0) (p : St F) :
    (stB m c t h1 h0 p).s1 = p.s1 := rfl

theorem stB_s2 (c : Dev nD) (t : Fin cfg0.N) (h1 : t.val % 4 = 0) (h0 : t.val % 32 ≠ 0) (p : St F) :
    (stB m c t h1 h0 p).s2 = k0_pay4 (xb3 m c t) (xb2 m c t) p.s2 := by
  unfold stB; dsimp only
  rw [View.read_writes_eq_canon _ _ _ (coverB_s2 c _ _ _ _ _ _ _ _ _ _ _ _ _ _ _ _ _ _ _ _ _ _ _ _ _ _ _ _)]
  unfold kernelRun0_B
  dsimp only; sl_unfold_words
  rw [View.canon_unit_zero hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

/-! ## The first point -/

theorem stA_s0 (c : Dev nD) (t : Fin cfg0.N) (hA : t.val % 32 = 0) :
    (stA m c t hA).s0 = k0_pay5 (xb0 m c t) (xb1 m c t) (k0_pay3 (F := F)) := by
  unfold stA; dsimp only
  rw [View.read_writes_eq_canon _ _ _ (coverA_s0 c _ _ _ _ _ _ _ _ _ _ _ _ _ _ _ _ _ _ _ _ _ _ _ _ _ _ _)]
  unfold kernelRun0_A
  dsimp only; sl_unfold_words
  rw [View.canon_cons_unit_zero (S := S1024x64) hz2, View.readCov_unit_zero (S := S1024x64) _ hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

theorem stA_s1 (c : Dev nD) (t : Fin cfg0.N) (hA : t.val % 32 = 0) :
    (stA m c t hA).s1 = k0_pay1 (F := F) := by
  unfold stA; dsimp only
  rw [View.read_writes_eq_canon _ _ _ (coverA_s1 c _ _ _ _ _ _ _ _ _ _ _ _ _ _ _ _ _ _ _ _ _ _ _ _ _ _ _)]
  unfold kernelRun0_A
  dsimp only; sl_unfold_words
  rw [View.canon_unit_zero hz2]

theorem stA_s2 (c : Dev nD) (t : Fin cfg0.N) (hA : t.val % 32 = 0) :
    (stA m c t hA).s2 = k0_pay4 (xb3 m c t) (xb2 m c t) (k0_pay2 (F := F)) := by
  unfold stA; dsimp only
  rw [View.read_writes_eq_canon _ _ _ (coverA_s2 c _ _ _ _ _ _ _ _ _ _ _ _ _ _ _ _ _ _ _ _ _ _ _ _ _ _ _)]
  unfold kernelRun0_A
  dsimp only; sl_unfold_words
  rw [View.canon_cons_unit_zero (S := S64x64) hz2, View.readCov_unit_zero (S := S64x64) _ hz2]
  simp only [View.readAt_eq_ld, Memref.IsWhole.read_unread, read_sc0, read_sc1, read_sc2, View.ld_unit_zero (S := S1024x2048) hz2, View.ld_unit_zero (S := S2048x64) hz2, View.ld_unit_zero (S := S1024x64) hz2, View.ld_unit_zero (S := S1x1) hz2, View.ld_unit_zero (S := S64x64) hz2, View.readCov_unit_zero (S := S1024x64) _ hz2, View.readCov_unit_zero (S := S1x1) _ hz2, View.readCov_unit_zero (S := S64x64) _ hz2]

end Cert.KernelIdeal.Hand

end
-- ==== Proof.KI.BlockReads.lean ====
/- Each input block of a grid point, read at an index, is its argument array read at the tile's offset: on every
   axis the block sits at its block index times the block's extent, and over the 8 × 4 grid the block indices are
   the point's row tile t / 4 and contraction tile t % 4. -/
import proofs.«110513_j575525618299_1_alg».proof.Proof.KI.Blocks
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points and the windows' block indices -/

/-- The grid has 32 points. -/
theorem point_lt (t : Fin cfg0.N) : t.val < 32 := by
  have h := t.isLt
  have hN : cfg0.N = 32 := N_0
  omega

/-- Point t of the 8 × 4 grid has coordinates (t / 4, t % 4). -/
theorem coords_eq : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- The printed index maps, decided over the grid: the Θ tile is block (t / 4, t % 4); the F_ll rows of the
    contraction tile are block (t % 4, 0); the F_ll and F_ul rows of the row tile are block (t / 4, 0). -/
theorem idx_reads : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-! ## The blocks, read -/

/-- The Θ tile of point t at (r, kk) is Θ at (1024 (t / 4) + r, 2048 (t % 4) + kk). -/
theorem xb0_apply (c : Dev nD) (t : Fin cfg0.N) (r : Fin 1024) (kk : Fin 2048) :
    xb0 m c t (ix2 r kk) = (V m c main_arg2 : Vec F S8192x8192 .f32) (ix2 (⟨1024 * (t.val / 4) + r.val, by have := point_lt t; omega⟩ : Fin 8192) (⟨2048 * (t.val % 4) + kk.val, by omega⟩ : Fin 8192)) := by
  obtain ⟨e0, e1, -⟩ := idx_reads t
  show (V m c main_arg2 : Vec F S8192x8192 .f32) (((cfg0.win 0).blk t).view.emb (ix2 r kk)) = _
  refine congrArg _ ?_
  funext a; apply Fin.ext
  match a with
  | ⟨0, _⟩ => show win0_0.index t (0 : Fin 2) * 1024 + 1 * r.val = 1024 * (t.val / 4) + r.val; omega
  | ⟨1, _⟩ => show win0_0.index t (1 : Fin 2) * 2048 + 1 * kk.val = 2048 * (t.val % 4) + kk.val; omega

/-- The contraction tile's F_ll block of point t at (kk, l) is F_ll at (2048 (t % 4) + kk, l). -/
theorem xb1_apply (c : Dev nD) (t : Fin cfg0.N) (kk : Fin 2048) (l : Fin 64) :
    xb1 m c t (ix2 kk l) = (V m c main_arg0 : Vec F S8192x64 .f32) (ix2 (⟨2048 * (t.val % 4) + kk.val, by omega⟩ : Fin 8192) l) := by
  obtain ⟨-, -, e0, e1, -⟩ := idx_reads t
  show (V m c main_arg0 : Vec F S8192x64 .f32) (((cfg0.win 1).blk t).view.emb (ix2 kk l)) = _
  refine congrArg _ ?_
  funext a; apply Fin.ext
  match a with
  | ⟨0, _⟩ => show win0_1.index t (0 : Fin 2) * 2048 + 1 * kk.val = 2048 * (t.val % 4) + kk.val; omega
  | ⟨1, _⟩ => show win0_1.index t (1 : Fin 2) * 64 + 1 * l.val = l.val; omega

/-- The row tile's F_ll block of point t at (r, l) is F_ll at (1024 (t / 4) + r, l). -/
theorem xb2_apply (c : Dev nD) (t : Fin cfg0.N) (r : Fin 1024) (l : Fin 64) :
    xb2 m c t (ix2 r l) = (V m c main_arg0 : Vec F S8192x64 .f32) (ix2 (⟨1024 * (t.val / 4) + r.val, by have := point_lt t; omega⟩ : Fin 8192) l) := by
  obtain ⟨-, -, -, -, e0, e1, -⟩ := idx_reads t
  show (V m c main_arg0 : Vec F S8192x64 .f32) (((cfg0.win 2).blk t).view.emb (ix2 r l)) = _
  refine congrArg _ ?_
  funext a; apply Fin.ext
  match a with
  | ⟨0, _⟩ => show win0_2.index t (0 : Fin 2) * 1024 + 1 * r.val = 1024 * (t.val / 4) + r.val; omega
  | ⟨1, _⟩ => show win0_2.index t (1 : Fin 2) * 64 + 1 * l.val = l.val; omega

/-- The row tile's F_ul block of point t at (r, l) is F_ul at (1024 (t / 4) + r, l). -/
theorem xb3_apply (c : Dev nD) (t : Fin cfg0.N) (r : Fin 1024) (l : Fin 64) :
    xb3 m c t (ix2 r l) = (V m c main_arg1 : Vec F S8192x64 .f32) (ix2 (⟨1024 * (t.val / 4) + r.val, by have := point_lt t; omega⟩ : Fin 8192) l) := by
  obtain ⟨-, -, -, -, -, -, e0, e1⟩ := idx_reads t
  show (V m c main_arg1 : Vec F S8192x64 .f32) (((cfg0.win 3).blk t).view.emb (ix2 r l)) = _
  refine congrArg _ ?_
  funext a; apply Fin.ext
  match a with
  | ⟨0, _⟩ => show win0_3.index t (0 : Fin 2) * 1024 + 1 * r.val = 1024 * (t.val / 4) + r.val; omega
  | ⟨1, _⟩ => show win0_3.index t (1 : Fin 2) * 64 + 1 * l.val = l.val; omega

end Cert.KernelIdeal.Hand

end
-- ==== Proof.Val.Payloads.lean ====
import proofs.«110513_j575525618299_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The zero splat stored at the first grid step of the running sum reads 0 everywhere. -/
theorem pay1_apply (j : S1x1.Idx) : k0_pay1 (F := Ideal) j = 0 := by
  unfold k0_pay1
  rw [shapeCast_self]
  exact Ideal.ofBits_zero_f32

/-- The zero splat stored into the Gram accumulator reads 0 everywhere. -/
theorem pay2_apply (j : S64x64.Idx) : k0_pay2 (F := Ideal) j = 0 := by
  unfold k0_pay2
  rw [shapeCast_self]
  exact Ideal.ofBits_zero_f32

/-- The zero splat stored into the row-block accumulator reads 0 everywhere. -/
theorem pay3_apply (j : S1024x64.Idx) : k0_pay3 (F := Ideal) j = 0 := by
  unfold k0_pay3
  rw [shapeCast_self]
  exact Ideal.ofBits_zero_f32

theorem lhs_pay5_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pay5_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pay5_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pay5_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The row-block product into a zero accumulator, read at row r and column l: the sum over the contracted axis of the operands' products. -/
theorem matmul_pay5_apply (a : FVec Ideal S1024x2048 .bf16) (b : FVec Ideal S2048x64 .bf16) (r : Fin 1024) (l : Fin 64) :
    matmul (F := Ideal) dot_S1024x2048_S2048x64_S1024x64_1_0_0_1_n_n none a b (constant (F := Ideal) S1024x64 .f32 0x00000000#32) (ix2 r l)
      = ∑ kk : Fin 2048, a (ix2 r kk) * b (ix2 kk l) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r l) ((contrEquiv1 dot_S1024x2048_S2048x64_S1024x64_1_0_0_1_n_n 2048 rfl rfl).symm k) = ix2 r k := funext fun a => Fin.ext (by
    match a with
    | ⟨0, _⟩ => exact lhs_pay5_0 _ _
    | ⟨1, _⟩ => exact (lhs_pay5_1 _ _).trans hk)
  have er : dot_S1024x2048_S2048x64_S1024x64_1_0_0_1_n_n.rhsIdx (ix2 r l) ((contrEquiv1 dot_S1024x2048_S2048x64_S1024x64_1_0_0_1_n_n 2048 rfl rfl).symm k) = ix2 k l := funext fun a => Fin.ext (by
    match a with
    | ⟨0, _⟩ => exact (rhs_pay5_0 _ _).trans hk
    | ⟨1, _⟩ => exact rhs_pay5_1 _ _)
  rw [el, er]

/-- The row-block accumulator after one grid step: what it held plus the block product, the change of format being the identity on the ideal values. -/
theorem pay5_apply (v8 : Vec Ideal S1024x2048 .f32) (v10 : Vec Ideal S2048x64 .f32) (v12 : Vec Ideal S1024x64 .f32) (r : Fin 1024) (l : Fin 64) :
    k0_pay5 v8 v10 v12 (ix2 r l) = v12 (ix2 r l) + ∑ kk : Fin 2048, v8 (ix2 r kk) * v10 (ix2 kk l) := by
  unfold k0_pay5
  rw [shapeCast_self]
  refine (addf_apply _ _ _).trans ?_
  refine congrArg (v12 (ix2 r l) + ·) ?_
  exact matmul_pay5_apply (truncf .bf16 v8 bitsLt_bf16_f32) (truncf .bf16 v10 bitsLt_bf16_f32) r l

theorem lhs_pay4_0 (i : S64x64.Idx) (q : dot_S64x1024_S1024x64_S64x64_1_0_0_1_n_n.contr.Idx) :
    (dot_S64x1024_S1024x64_S64x64_1_0_0_1_n_n.lhsIdx i q 0).val = (i 0).val := by
  unfold DotDims.lhsIdx
  rw [dif_neg (show ¬(0 : Fin S64x1024.rank) ∈ dot_S64x1024_S1024x64_S64x64_1_0_0_1_n_n.lhsBatch by decide), dif_pos (show (0 : Fin S64x1024.rank) ∈ dot_S64x1024_S1024x64_S64x64_1_0_0_1_n_n.lhsNonContracting by decide)]
  rfl
theorem lhs_pay4_1 (i : S64x64.Idx) (q : dot_S64x1024_S1024x64_S64x64_1_0_0_1_n_n.contr.Idx) :
    (dot_S64x1024_S1024x64_S64x64_1_0_0_1_n_n.lhsIdx i q 1).val = (q ⟨0, by decide⟩).val :=
  dot_S64x1024_S1024x64_S64x64_1_0_0_1_n_n.lhsIdx_val_of_single rfl i q
theorem rhs_pay4_0 (i : S64x64.Idx) (q : dot_S64x1024_S1024x64_S64x64_1_0_0_1_n_n.contr.Idx) :
    (dot_S64x1024_S1024x64_S64x64_1_0_0_1_n_n.rhsIdx i q 0).val = (q ⟨0, by decide⟩).val :=
  dot_S64x1024_S1024x64_S64x64_1_0_0_1_n_n.rhsIdx_val_of_single rfl i q
theorem rhs_pay4_1 (i : S64x64.Idx) (q : dot_S64x1024_S1024x64_S64x64_1_0_0_1_n_n.contr.Idx) :
    (dot_S64x1024_S1024x64_S64x64_1_0_0_1_n_n.rhsIdx i q 1).val = (i 1).val := by
  unfold DotDims.rhsIdx
  rw [dif_neg (show ¬(1 : Fin S1024x64.rank) ∈ dot_S64x1024_S1024x64_S64x64_1_0_0_1_n_n.rhsBatch by decide), dif_pos (show (1 : Fin S1024x64.rank) ∈ dot_S64x1024_S1024x64_S64x64_1_0_0_1_n_n.rhsNonContracting by decide)]
  rfl

/-- The Gram product into a zero accumulator, read at row p and column q: the sum over the contracted axis of the operands' products. -/
theorem matmul_pay4_apply (a : FVec Ideal S64x1024 .bf16) (b : FVec Ideal S1024x64 .bf16) (r : Fin 64) (l : Fin 64) :
    matmul (F := Ideal) dot_S64x1024_S1024x64_S64x64_1_0_0_1_n_n none a b (constant (F := Ideal) S64x64 .f32 0x00000000#32) (ix2 r l)
      = ∑ kk : Fin 1024, a (ix2 r kk) * b (ix2 kk l) := by
  simp only [matmul]
  rw [Ideal.matmul_constant_zero_apply, ← Equiv.sum_comp (contrEquiv1 dot_S64x1024_S1024x64_S64x64_1_0_0_1_n_n 1024 rfl rfl).symm]
  refine Finset.sum_congr rfl fun k _ => ?_
  have hk := contrEquiv1_symm_val dot_S64x1024_S1024x64_S64x64_1_0_0_1_n_n 1024 rfl rfl k
  have el : dot_S64x1024_S1024x64_S64x64_1_0_0_1_n_n.lhsIdx (ix2 r l) ((contrEquiv1 dot_S64x1024_S1024x64_S64x64_1_0_0_1_n_n 1024 rfl rfl).symm k) = ix2 r k := funext fun a => Fin.ext (by
    match a with
    | ⟨0, _⟩ => exact lhs_pay4_0 _ _
    | ⟨1, _⟩ => exact (lhs_pay4_1 _ _).trans hk)
  have er : dot_S64x1024_S1024x64_S64x64_1_0_0_1_n_n.rhsIdx (ix2 r l) ((contrEquiv1 dot_S64x1024_S1024x64_S64x64_1_0_0_1_n_n 1024 rfl rfl).symm k) = ix2 k l := funext fun a => Fin.ext (by
    match a with
    | ⟨0, _⟩ => exact (rhs_pay4_0 _ _).trans hk
    | ⟨1, _⟩ => exact rhs_pay4_1 _ _)
  rw [el, er]

/-- The Gram accumulator after one grid step: what it held plus the transposed block times the block, the transpose read at its swapped index and the change of format the identity on the ideal values. -/
theorem pay4_apply (v30 v32 : Vec Ideal S1024x64 .f32) (v34 : Vec Ideal S64x64 .f32) (p q : Fin 64) :
    k0_pay4 v30 v32 v34 (ix2 p q) = v34 (ix2 p q) + ∑ r : Fin 1024, v30 (ix2 r p) * v32 (ix2 r q) := by
  unfold k0_pay4
  rw [shapeCast_self]
  refine (addf_apply _ _ _).trans ?_
  refine congrArg (v34 (ix2 p q) + ·) ?_
  refine (matmul_pay4_apply _ _ p q).trans ?_
  refine Finset.sum_congr rfl fun r _ => ?_
  refine congrArg (· * v32 (ix2 r q)) ?_
  exact transpose_ix2_apply (truncf (F := Ideal) .bf16 v30 bitsLt_bf16_f32) transposes_S1024x64_p1_0_S64x1024 p r

/-- A column [a] cast to [a,1] reads, at (i, u), the operand at i, whatever the unit coordinate u: both have row-major position i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over row r with lane l put back on the reduced lane axis is (r, l). -/
theorem lift_lane (r : Fin 1024) (l : Fin 64) : reduces_S1024x64_S1024.lift (ix1 r) l = ix2 r l :=
  funext fun c => Fin.ext (by match c with | ⟨0, _⟩ => rfl | ⟨1, _⟩ => rfl)

/-- The index over the unit column w with row r put back on the reduced row axis is (r, w). -/
theorem lift_sublane (w : Fin 1) (r : Fin 1024) : reduces_S1024x1_S1.lift (ix1 w) r = ix2 r w :=
  funext fun c => Fin.ext (by match c with | ⟨0, _⟩ => rfl | ⟨1, _⟩ => rfl)

/-- The running sum after the last column step: what it held plus the sum over rows of the sums over lanes of the products; each reduction is the plain sum over its axis on the ideal values, and the two casts that add a unit axis read the same row-major position. -/
theorem pay6_apply (v26 v27 : Vec Ideal S1024x64 .f32) (v33 : Vec Ideal S1x1 .f32) (j : S1x1.Idx) :
    k0_pay6 v26 v27 v33 j = v33 j + ∑ r : Fin 1024, ∑ l : Fin 64, v26 (ix2 r l) * v27 (ix2 r l) := by
  obtain ⟨u, w, rfl⟩ : ∃ (u w : Fin 1), j = ix2 u w := ⟨j 0, j 1, eq_ix2 j⟩
  unfold k0_pay6
  rw [shapeCast_self]
  refine (addf_apply _ _ _).trans ?_
  refine congrArg (v33 (ix2 u w) + ·) ?_
  refine (shapeCast_a_1a_apply _ shapeCasts_S1_S1x1 u w).trans ?_
  refine (Ideal.multiReduction_add_single _ _ reduces_S1024x1_S1 _ _ (ix1 w)).trans ?_
  refine Finset.sum_congr rfl fun r _ => ?_
  rw [lift_sublane w r]
  refine (shapeCast_a_a1_apply _ shapeCasts_S1024_S1024x1 r w).trans ?_
  refine (Ideal.multiReduction_add_single _ _ reduces_S1024x64_S1024 _ _ (ix1 r)).trans ?_
  refine Finset.sum_congr rfl fun l _ => ?_
  rw [lift_lane r l]
  rfl

end Cert.KernelIdeal.Hand

end
-- ==== Proof.Spec.lean ====
/- The quantity both programs compute, over the extended reals: for Θ (8192 × 8192), F_ll and F_ul (8192 × 64) and a
   scalar λ,   Σ_{R,l} (Θ F_ll)[R,l] · F_ll[R,l]  +  λ · Σ_{p,q} G[p,q]²,   G = F_ulᵀ F_ll  (64 × 64);
   and the same quantity as the tiled kernel accumulates it: rows in 8 tiles of 1024, the contraction in 4 tiles of 2048. -/
import Idealize.ShloMosaic.PureOps.Ideal
import Idealize.ShloMosaic.Lib.ValueIdx

noncomputable section

namespace Cert.Spec

open Idealize.ShloMosaic Idealize.ShloMosaic.ValueIdx

/-- Index shapes: 8192 × 64, 8192 × 8192, 64 × 64. -/
abbrev SA : Shape := ⟨2, ![8192, 64]⟩
abbrev SX : Shape := ⟨2, ![8192, 8192]⟩
abbrev SG : Shape := ⟨2, ![64, 64]⟩

variable (a b : SA.Idx → EReal) (x : SX.Idx → EReal) (lam : EReal)

/-! ## Untiled -/

/-- (Θ F_ll)[R, l]. -/
def prod (R : Fin 8192) (l : Fin 64) : EReal := ∑ K : Fin 8192, x (ix2 R K) * a (ix2 K l)
/-- G[p, q] = Σ_K F_ul[K, p] · F_ll[K, q]. -/
def gram (p q : Fin 64) : EReal := ∑ K : Fin 8192, b (ix2 K p) * a (ix2 K q)
/-- The loss. -/
def loss : EReal := (∑ j : SA.Idx, prod a x (j 0) (j 1) * a j) + lam * ∑ j : SG.Idx, gram a b (j 0) (j 1) * gram a b (j 0) (j 1)

/-! ## Tiled: row tile i < 8 of 1024 rows, contraction tile k < 4 of 2048 -/

/-- Row `r` of row tile `i`, and element `kk` of contraction tile `k`. -/
def row (i r : ℕ) (hi : i < 8) (hr : r < 1024) : Fin 8192 := ⟨1024 * i + r, by omega⟩
def col (k kk : ℕ) (hk : k < 4) (hkk : kk < 2048) : Fin 8192 := ⟨2048 * k + kk, by omega⟩

/-- One tile product (Θ(i,k) · F_ll(k))[r, l]; zero outside the grid. -/
def tileProd (i k : ℕ) (r : Fin 1024) (l : Fin 64) : EReal :=
  if h : i < 8 ∧ k < 4 then ∑ kk : Fin 2048, x (ix2 (row i r h.1 r.isLt) (col k kk h.2 kk.isLt)) * a (ix2 (col k kk h.2 kk.isLt) l) else 0
/-- The row accumulator of tile `i` after `n` contraction tiles. -/
def acc (i n : ℕ) (r : Fin 1024) (l : Fin 64) : EReal := ∑ k ∈ Finset.range n, tileProd a x i k r l
/-- Row tile `i`'s contribution to the first term. -/
def rowTerm (i : ℕ) : EReal :=
  if h : i < 8 then ∑ r : Fin 1024, ∑ l : Fin 64, acc a x i 4 r l * a (ix2 (row i r h r.isLt) l) else 0
/-- The running sum after `n` row tiles. -/
def term1 (n : ℕ) : EReal := ∑ i ∈ Finset.range n, rowTerm a x i
/-- Row tile `i`'s term of the Gram matrix. -/
def gramTile (i : ℕ) (p q : Fin 64) : EReal :=
  if h : i < 8 then ∑ r : Fin 1024, b (ix2 (row i r h r.isLt) p) * a (ix2 (row i r h r.isLt) q) else 0
/-- The Gram matrix after `n` row tiles. -/
def gramN (n : ℕ) (p q : Fin 64) : EReal := ∑ i ∈ Finset.range n, gramTile a b i p q
/-- The loss as the tiled kernel accumulates it. -/
def lossT : EReal := term1 a x 8 + lam * ∑ j : SG.Idx, gramN a b 8 (j 0) (j 1) * gramN a b 8 (j 0) (j 1)

end Cert.Spec

end
-- ==== Proof.Val.Closed.lean ====
/- The recursion over the 32 grid points in closed form, over the extended reals: after point t = 4 i + k the row
   accumulator holds the sum of the first k + 1 tile products of row tile i, the running sum the contributions of
   the row tiles finished so far, and the Gram matrix the terms of row tiles 0 … i. Only 0 + s = s and the step
   Σ_{j < n + 1} = Σ_{j < n} + (term n) are used. -/
import proofs.«110513_j575525618299_1_alg».proof.Proof.KI.Frame
import proofs.«110513_j575525618299_1_alg».proof.Proof.KI.Pieces
import proofs.«110513_j575525618299_1_alg».proof.Proof.KI.BlockReads
import proofs.«110513_j575525618299_1_alg».proof.Proof.Val.Payloads
import proofs.«110513_j575525618299_1_alg».proof.Proof.Spec
import Mathlib.Algebra.BigOperators.Fin

set_option maxRecDepth 16384

noncomputable section

namespace Cert.KernelIdeal.Hand

open Idealize.ShloMosaic Idealize.ShloMosaic.TcCoe Idealize.ShloMosaic.ValueIdx
open Idealize.SL.Sem
open Cert.KernelIdeal.Gen

variable (m : (ℓ : Loc nD τ sig) → Buf (Elt Ideal) ℓ)

/-- F_ll, F_ul and Θ on core `c` when the region is entered. -/
abbrev aA (c : Dev nD) : Cert.Spec.SA.Idx → EReal := V m c main_arg0
abbrev bA (c : Dev nD) : Cert.Spec.SA.Idx → EReal := V m c main_arg1
abbrev xA (c : Dev nD) : Cert.Spec.SX.Idx → EReal := V m c main_arg2

theorem tN (t : Fin cfg0.N) : t.val < 32 := lt_of_lt_of_eq t.isLt (show cfg0.N = 32 from N_0)

/-! ## One point's terms -/

/-- The tile product of point t = 4 i + k. -/
theorem tile_eq (c : Dev nD) (t : Fin cfg0.N) (r : Fin 1024) (l : Fin 64) :
    (∑ kk : Fin 2048, xb0 m c t (ix2 r kk) * xb1 m c t (ix2 kk l))
      = Cert.Spec.tileProd (aA m c) (xA m c) (t.val / 4) (t.val % 4) r l := by
  have hN := tN t
  unfold Cert.Spec.tileProd
  rw [dif_pos ⟨by omega, by omega⟩]
  refine Finset.sum_congr rfl fun kk _ => ?_
  rw [xb0_apply, xb1_apply]
  rfl

/-- Row tile i's term of the Gram matrix, at a point of that row tile. -/
theorem gramTile_eq (c : Dev nD) (t : Fin cfg0.N) (p q : Fin 64) :
    (∑ r : Fin 1024, xb3 m c t (ix2 r p) * xb2 m c t (ix2 r q))
      = Cert.Spec.gramTile (aA m c) (bA m c) (t.val / 4) p q := by
  have hN := tN t
  unfold Cert.Spec.gramTile
  rw [dif_pos (by omega)]
  refine Finset.sum_congr rfl fun r _ => ?_
  rw [xb3_apply, xb2_apply]
  rfl

/-- Row tile i's contribution to the first term, from the full accumulator. -/
theorem rowTerm_eq (c : Dev nD) (t : Fin cfg0.N) (s0 : Vec Ideal S1024x64 .f32)
    (h : ∀ r l, s0 (ix2 r l) = Cert.Spec.acc (aA m c) (xA m c) (t.val / 4) 4 r l) :
    (∑ r : Fin 1024, ∑ l : Fin 64, s0 (ix2 r l) * xb2 m c t (ix2 r l))
      = Cert.Spec.rowTerm (aA m c) (xA m c) (t.val / 4) := by
  have hN := tN t
  unfold Cert.Spec.rowTerm
  rw [dif_pos (by omega)]
  refine Finset.sum_congr rfl fun r _ => Finset.sum_congr rfl fun l _ => ?_
  rw [h, xb2_apply]
  rfl

/-! ## The invariant -/

/-- What the three scratch operands hold after point `n`. -/
structure Inv (c : Dev nD) (n : ℕ) (S : St Ideal) : Prop where
  s0 : ∀ r l, S.s0 (ix2 r l) = Cert.Spec.acc (aA m c) (xA m c) (n / 4) (n % 4 + 1) r l
  s1 : ∀ j, S.s1 j = Cert.Spec.term1 (aA m c) (xA m c) ((n + 1) / 4)
  s2 : ∀ p q, S.s2 (ix2 p q) = Cert.Spec.gramN (aA m c) (bA m c) (n / 4 + 1) p q

/-- The accumulator's step: a reset accumulator (zero) or the one the point before left, plus this point's tile product. -/
theorem acc_step (c : Dev nD) (t : Fin cfg0.N) (v12 : Vec Ideal S1024x64 .f32) (n : ℕ)
    (hv : ∀ r l, v12 (ix2 r l) = Cert.Spec.acc (aA m c) (xA m c) (t.val / 4) n r l) (hn : n = t.val % 4) (r : Fin 1024) (l : Fin 64) :
    k0_pay5 (xb0 m c t) (xb1 m c t) v12 (ix2 r l) = Cert.Spec.acc (aA m c) (xA m c) (t.val / 4) (t.val % 4 + 1) r l := by
  rw [pay5_apply, hv, tile_eq]
  unfold Cert.Spec.acc
  rw [Finset.sum_range_succ, hn]

theorem acc_zero (c : Dev nD) (i : ℕ) (r : Fin 1024) (l : Fin 64) :
    (k0_pay3 (F := Ideal)) (ix2 r l) = Cert.Spec.acc (aA m c) (xA m c) i 0 r l := by
  rw [pay3_apply]; unfold Cert.Spec.acc; rw [Finset.sum_range_zero]

/-- The Gram matrix's step. -/
theorem gram_step (c : Dev nD) (t : Fin cfg0.N) (v34 : Vec Ideal S64x64 .f32) (n : ℕ)
    (hv : ∀ p q, v34 (ix2 p q) = Cert.Spec.gramN (aA m c) (bA m c) n p q) (hn : n = t.val / 4) (p q : Fin 64) :
    k0_pay4 (xb3 m c t) (xb2 m c t) v34 (ix2 p q) = Cert.Spec.gramN (aA m c) (bA m c) (t.val / 4 + 1) p q := by
  rw [pay4_apply, hv, gramTile_eq]
  unfold Cert.Spec.gramN
  rw [Finset.sum_range_succ, hn]

/-- The running sum's step at a point with k = 3. -/
theorem term_step (c : Dev nD) (t : Fin cfg0.N) (hk : t.val % 4 = 3) (v26 : Vec Ideal S1024x64 .f32) (v33 : Vec Ideal S1x1 .f32)
    (h26 : ∀ r l, v26 (ix2 r l) = Cert.Spec.acc (aA m c) (xA m c) (t.val / 4) 4 r l)
    (h33 : ∀ j, v33 j = Cert.Spec.term1 (aA m c) (xA m c) (t.val / 4)) (j : S1x1.Idx) :
    k0_pay6 v26 (xb2 m c t) v33 j = Cert.Spec.term1 (aA m c) (xA m c) ((t.val + 1) / 4) := by
  rw [pay6_apply, h33, rowTerm_eq m c t v26 h26]
  unfold Cert.Spec.term1
  rw [show (t.val + 1) / 4 = t.val / 4 + 1 by omega, Finset.sum_range_succ]

theorem stepA (c : Dev nD) (t : Fin cfg0.N) (hA : t.val % 32 = 0) : Inv m c t.val (stA m c t hA) := by
  have hN := tN t
  have hz : t.val = 0 := by omega
  refine ⟨fun r l => ?_, fun j => ?_, fun p q => ?_⟩
  · rw [stA_s0]
    exact acc_step m c t _ 0 (fun r l => acc_zero m c _ r l) (by omega) r l
  · rw [stA_s1, pay1_apply]
    unfold Cert.Spec.term1
    rw [show (t.val + 1) / 4 = 0 by omega, Finset.sum_range_zero]
  · rw [stA_s2]
    refine gram_step m c t _ 0 (fun p q => ?_) (by omega) p q
    rw [pay2_apply]; unfold Cert.Spec.gramN; rw [Finset.sum_range_zero]

theorem stepB (c : Dev nD) (t : Fin cfg0.N) (h1 : t.val % 4 = 0) (h0 : t.val % 32 ≠ 0) (p : St Ideal)
    (hp : Inv m c (t.val - 1) p) : Inv m c t.val (stB m c t h1 h0 p) := by
  have hN := tN t
  refine ⟨fun r l => ?_, fun j => ?_, fun p' q => ?_⟩
  · rw [stB_s0]
    exact acc_step m c t _ 0 (fun r l => acc_zero m c _ r l) (by omega) r l
  · rw [stB_s1, hp.s1]
    congr 1; omega
  · rw [stB_s2]
    refine gram_step m c t _ ((t.val - 1) / 4 + 1) (fun p' q => hp.s2 p' q) (by omega) p' q

theorem stepC (c : Dev nD) (t : Fin cfg0.N) (h1 : t.val % 4 ≠ 0) (h2 : t.val % 4 ≠ 3) (p : St Ideal)
    (hp : Inv m c (t.val - 1) p) : Inv m c t.val (stC m c t h1 h2 p) := by
  have hN := tN t
  refine ⟨fun r l => ?_, fun j => ?_, fun p' q => ?_⟩
  · rw [stC_s0]
    refine acc_step m c t _ ((t.val - 1) % 4 + 1) (fun r l => ?_) (by omega) r l
    rw [hp.s0, show (t.val - 1) / 4 = t.val / 4 by omega]
  · rw [stC_s1, hp.s1]
    congr 1; omega
  · rw [stC_s2, hp.s2]
    congr 1; omega

/-- At a point with k = 3 the accumulator is full and the running sum takes the row tile's contribution. -/
theorem stepK3 (c : Dev nD) (t : Fin cfg0.N) (h2 : t.val % 4 = 3) (p : St Ideal) (hp : Inv m c (t.val - 1) p) :
    (∀ r l, k0_pay5 (xb0 m c t) (xb1 m c t) p.s0 (ix2 r l) = Cert.Spec.acc (aA m c) (xA m c) (t.val / 4) (t.val % 4 + 1) r l)
    ∧ (∀ j, k0_pay6 (k0_pay5 (xb0 m c t) (xb1 m c t) p.s0) (xb2 m c t) p.s1 j = Cert.Spec.term1 (aA m c) (xA m c) ((t.val + 1) / 4))
    ∧ (∀ p' q, p.s2 (ix2 p' q) = Cert.Spec.gramN (aA m c) (bA m c) (t.val / 4 + 1) p' q) := by
  have hN := tN t
  have hs0 : ∀ r l, k0_pay5 (xb0 m c t) (xb1 m c t) p.s0 (ix2 r l) = Cert.Spec.acc (aA m c) (xA m c) (t.val / 4) (t.val % 4 + 1) r l := fun r l => by
    refine acc_step m c t _ ((t.val - 1) % 4 + 1) (fun r l => ?_) (by omega) r l
    rw [hp.s0, show (t.val - 1) / 4 = t.val / 4 by omega]
  refine ⟨hs0, fun j => ?_, fun p' q => ?_⟩
  · refine term_step m c t h2 _ _ (fun r l => ?_) (fun j => ?_) j
    · rw [hs0, h2]
    · rw [hp.s1, show (t.val - 1 + 1) / 4 = t.val / 4 by omega]
  · rw [hp.s2]; congr 1; omega

theorem stepD (c : Dev nD) (t : Fin cfg0.N) (h2 : t.val % 4 = 3) (h3 : t.val % 32 ≠ 31) (p : St Ideal)
    (hp : Inv m c (t.val - 1) p) : Inv m c t.val (stD m c t h2 h3 p) := by
  obtain ⟨a0, a1, a2⟩ := stepK3 m c t h2 p hp
  refine ⟨fun r l => ?_, fun j => ?_, fun p' q => ?_⟩
  · rw [stD_s0]; exact a0 r l
  · rw [stD_s1]; exact a1 j
  · rw [stD_s2]; exact a2 p' q

theorem stepE (c : Dev nD) (t : Fin cfg0.N) (hE : t.val % 32 = 31) (p : St Ideal)
    (hp : Inv m c (t.val - 1) p) : Inv m c t.val (stE m c t hE p)
      ∧ (∀ j, (stE m c t hE p).o4 j = Cert.Spec.term1 (aA m c) (xA m c) ((t.val + 1) / 4))
      ∧ (∀ p' q, (stE m c t hE p).o5 (ix2 p' q) = Cert.Spec.gramN (aA m c) (bA m c) (t.val / 4 + 1) p' q) := by
  obtain ⟨a0, a1, a2⟩ := stepK3 m c t (by omega) p hp
  refine ⟨⟨fun r l => ?_, fun j => ?_, fun p' q => ?_⟩, fun j => ?_, fun p' q => ?_⟩
  · rw [stE_s0]; exact a0 r l
  · rw [stE_s1]; exact a1 j
  · rw [stE_s2]; exact a2 p' q
  · rw [stE_o4]; exact a1 j
  · rw [stE_o5]; exact a2 p' q

/-! ## All points -/

theorem inv_all (c : Dev nD) : ∀ (n : ℕ) (hn : n < cfg0.N), Inv m c n (outsAt0 m c n hn)
  | 0, hn => stepA m c ⟨0, hn⟩ (Nat.zero_mod _)
  | n + 1, hn => by
    have ih : Inv m c n (outsAt0 m c n (Nat.lt_of_succ_lt hn)) := inv_all c n (Nat.lt_of_succ_lt hn)
    have hN : n + 1 < 32 := lt_of_lt_of_eq hn (show cfg0.N = 32 from N_0)
    by_cases h1 : (n + 1) % 4 = 0
    · have h0 : (n + 1) % 32 ≠ 0 := by omega
      rw [show outsAt0 m c (n + 1) hn = _ from outsAt0_B m c ⟨n + 1, hn⟩ h1 h0]
      exact stepB m c ⟨n + 1, hn⟩ h1 h0 _ ih
    · by_cases hE : (n + 1) % 32 = 31
      · rw [show outsAt0 m c (n + 1) hn = _ from outsAt0_E m c ⟨n + 1, hn⟩ hE]
        exact (stepE m c ⟨n + 1, hn⟩ hE _ ih).1
      · by_cases h2 : (n + 1) % 4 = 3
        · rw [show outsAt0 m c (n + 1) hn = _ from outsAt0_D m c ⟨n + 1, hn⟩ h2 hE]
          exact stepD m c ⟨n + 1, hn⟩ h2 hE _ ih
        · rw [show outsAt0 m c (n + 1) hn = _ from outsAt0_C m c ⟨n + 1, hn⟩ h1 h2]
          exact stepC m c ⟨n + 1, hn⟩ h1 h2 _ ih

/-- After the last point the first result window holds the whole first term and the second the whole Gram matrix. -/
theorem last_o4 (c : Dev nD) (h : 31 < cfg0.N) (j : S1x1.Idx) :
    (outsAt0 m c 31 h).o4 j = Cert.Spec.term1 (aA m c) (xA m c) 8 := by
  have ih := inv_all m c 30 (Nat.lt_of_succ_lt h)
  rw [show outsAt0 m c 31 h = _ from outsAt0_E m c ⟨31, h⟩ rfl]
  have e := (stepE m c ⟨31, h⟩ rfl _ ih).2.1 j
  have e8 : ((⟨31, h⟩ : Fin cfg0.N).val + 1) / 4 = 8 := by show (31 + 1) / 4 = 8; decide
  rw [e8] at e
  exact e

theorem last_o5 (c : Dev nD) (h : 31 < cfg0.N) (p q : Fin 64) :
    (outsAt0 m c 31 h).o5 (ix2 p q) = Cert.Spec.gramN (aA m c) (bA m c) 8 p q := by
  have ih := inv_all m c 30 (Nat.lt_of_succ_lt h)
  rw [show outsAt0 m c 31 h = _ from outsAt0_E m c ⟨31, h⟩ rfl]
  have e := (stepE m c ⟨31, h⟩ rfl _ ih).2.2 p q
  have e8 : (⟨31, h⟩ : Fin cfg0.N).val / 4 + 1 = 8 := by show 31 / 4 + 1 = 8; decide
  rw [e8] at e
  exact e

end Cert.KernelIdeal.Hand

end
-- ==== Proof.Val.TailValue.lean ====
/- The host tail's value at the extended reals: the reshape of a one-element array reads that element, the host's total
   sum of the 64 × 64 squares starts from the float zero, and the scalar result has one index. -/
import proofs.«110513_j575525618299_1_alg».proof.Proof.KI.Tail
import proofs.«110513_j575525618299_1_alg».proof.Proof.Spec
import Idealize.ShloMosaic.Lib.ValueIdx
import Idealize.ShloMosaic.PureOps.Ideal.Laws

noncomputable section

namespace Cert.KernelIdeal.Hand

open Idealize.ShloMosaic Idealize.ShloMosaic.ValueIdx
open Cert.KernelIdeal Cert.KernelIdeal.Gen

/-- The host's total sum into the scalar shape, from the float zero, is the sum over every index. -/
theorem hostSum_apply (y : Vec Ideal S64x64 .f32) (h : S64x64.ReducesTo [0, 1] S_) (hu : 0 < S_.numel) (i : S_.Idx) :
    Host.reduceAdd (F := Ideal) y (constant S_ .f32 0x00000000#32) h hu i = ∑ j : S64x64.Idx, y j := by
  simp only [Host.reduceAdd, Ideal.hostReduceAdd_def]
  rw [Ideal.hostReduceAdd_total h (fun b => b.elim0) y _ i]
  show Ideal.ofBits .f32 0x00000000#32 + _ = _
  rw [Ideal.ofBits_zero_f32, zero_add]

/-- The tail's scalar: the one element of the first result plus λ times the sum of the squares of the second. -/
theorem tailTerm_eq (o4 : Vec Ideal S1x1 .f32) (o5 : Vec Ideal S64x64 .f32) (lam : Vec Ideal S_ .f32) (T : EReal) (G : Fin 64 → Fin 64 → EReal)
    (h4 : ∀ j, o4 j = T) (h5 : ∀ p q, o5 (ValueIdx.ix2 p q) = G p q) :
    tailTerm o4 o5 lam = fun _ => T + lam ValueIdx.ix0 * ∑ j : Cert.Spec.SG.Idx, G (j 0) (j 1) * G (j 0) (j 1) := by
  funext i
  obtain rfl : i = ix0 := eq_ix0 i
  unfold tailTerm
  show shapeCast S_ o4 _ ix0 + lam ix0 * Host.reduceAdd (F := Ideal) (mulf o5 o5) (constant S_ .f32 0x00000000#32) _ _ ix0 = _
  have hs : ∀ h : S1x1.ShapeCasts S_, shapeCast S_ o4 h ix0 = T := fun h => by
    unfold shapeCast
    exact h4 _
  rw [hs, hostSum_apply]
  congr 1
  congr 1
  refine Finset.sum_congr rfl fun j _ => ?_
  have e : o5 j = G (j 0) (j 1) := (congrArg o5 (eq_ix2 j)).trans (h5 (j 0) (j 1))
  show o5 j * o5 j = _
  rw [e]

end Cert.KernelIdeal.Hand

end
-- ==== Proof.SpecTiles.lean ====
/- The tiled accumulation of the loss equals the untiled one: only commutativity and associativity of addition on the
   extended reals are used. A sum over 8192 rows is the sum over 8 tiles of 1024; a contraction over 8192 is the sum over
   4 tiles of 2048; a sum over a rank-2 index set is the double sum over its coordinates. -/
import proofs.«110513_j575525618299_1_alg».proof.Proof.Spec
import Mathlib.Logic.Equiv.Fin.Basic
import Mathlib.Algebra.BigOperators.Fin

noncomputable section

namespace Cert.Spec

open Idealize.ShloMosaic Idealize.ShloMosaic.ValueIdx

/-- A sum over `Fin (m * n)` is the sum over `m` tiles of `n`. -/
theorem sum_fin_tiles {M : Type*} [AddCommMonoid M] {m n : ℕ} (f : Fin (m * n) → M) :
    ∑ K : Fin (m * n), f K = ∑ i : Fin m, ∑ r : Fin n, f (finProdFinEquiv (i, r)) := by
  rw [← Equiv.sum_comp finProdFinEquiv f, Fintype.sum_prod_type]

/-- Element `r` of row tile `i`, as the product bijection gives it. -/
theorem fin_row (i : Fin 8) (r : Fin 1024) :
    (finProdFinEquiv (i, r) : Fin (8 * 1024)) = row i r i.isLt r.isLt := by
  apply Fin.ext
  show (r : ℕ) + 1024 * (i : ℕ) = 1024 * (i : ℕ) + (r : ℕ)
  omega

/-- Element `kk` of contraction tile `k`, as the product bijection gives it. -/
theorem fin_col (k : Fin 4) (kk : Fin 2048) :
    (finProdFinEquiv (k, kk) : Fin (4 * 2048)) = col k kk k.isLt kk.isLt := by
  apply Fin.ext
  show (kk : ℕ) + 2048 * (k : ℕ) = 2048 * (k : ℕ) + (kk : ℕ)
  omega

/-- A sum over the 8192 rows, by row tiles. -/
theorem sum_rows {M : Type*} [AddCommMonoid M] (f : Fin 8192 → M) :
    ∑ R : Fin 8192, f R = ∑ i : Fin 8, ∑ r : Fin 1024, f (row i r i.isLt r.isLt) := by
  rw [sum_fin_tiles (m := 8) (n := 1024) f]
  simp only [fin_row]

/-- A sum over the contraction range 8192, by contraction tiles. -/
theorem sum_cols {M : Type*} [AddCommMonoid M] (f : Fin 8192 → M) :
    ∑ K : Fin 8192, f K = ∑ k : Fin 4, ∑ kk : Fin 2048, f (col k kk k.isLt kk.isLt) := by
  rw [sum_fin_tiles (m := 4) (n := 2048) f]
  simp only [fin_col]

variable (a b : SA.Idx → EReal) (x : SX.Idx → EReal) (lam : EReal)

/-- The row accumulator after the four contraction tiles is the full product row. -/
theorem acc_eq (i : Fin 8) (r : Fin 1024) (l : Fin 64) :
    acc a x i 4 r l = prod a x (row i r i.isLt r.isLt) l := by
  unfold acc prod
  rw [Finset.sum_range, sum_cols]
  refine Finset.sum_congr rfl fun k _ => ?_
  unfold tileProd
  rw [dif_pos ⟨i.isLt, k.isLt⟩]

/-- The first term after the eight row tiles. -/
theorem term1_eq : term1 a x 8 = ∑ j : SA.Idx, prod a x (j 0) (j 1) * a j := by
  unfold term1
  rw [Finset.sum_range, sum_idx2, sum_rows]
  refine Finset.sum_congr rfl fun i _ => ?_
  unfold rowTerm
  rw [dif_pos i.isLt]
  refine Finset.sum_congr rfl fun r _ => Finset.sum_congr rfl fun l _ => ?_
  rw [acc_eq]

/-- The Gram matrix after the eight row tiles. -/
theorem gramN_eq (p q : Fin 64) : gramN a b 8 p q = gram a b p q := by
  unfold gramN gram
  rw [Finset.sum_range, sum_rows]
  refine Finset.sum_congr rfl fun i _ => ?_
  unfold gramTile
  rw [dif_pos i.isLt]

/-- The tiled loss is the loss. -/
theorem lossT_eq_loss (a b : SA.Idx → EReal) (x : SX.Idx → EReal) (lam : EReal) : lossT a b x lam = loss a b x lam := by
  unfold lossT loss
  rw [term1_eq, show gramN a b 8 = gram a b from funext fun p => funext fun q => gramN_eq a b p q]

end Cert.Spec

end
-- ==== Proof.Val.KernelValue.lean ====
/- The idealized kernel's result over the extended reals: its run ends with the program's result buffer at the loss
   Σ (Θ F_ll) ∘ F_ll + λ ‖F_ulᵀ F_ll‖², and the four arguments unchanged. -/
import proofs.«110513_j575525618299_1_alg».proof.Proof.KI.Launch
import proofs.«110513_j575525618299_1_alg».proof.Proof.KI.Final
import proofs.«110513_j575525618299_1_alg».proof.Proof.Val.Closed
import proofs.«110513_j575525618299_1_alg».proof.Proof.Val.TailValue
import proofs.«110513_j575525618299_1_alg».proof.Proof.SpecTiles

set_option maxRecDepth 16384

noncomputable section

namespace Cert.KernelIdeal.Hand

open Idealize.ShloMosaic Idealize.ShloMosaic.TcCoe Idealize.ShloMosaic.ValueIdx
open Idealize.SL.Sem
open Cert.KernelIdeal.Gen

variable (m : (ℓ : Loc nD τ sig) → Buf (Elt Ideal) ℓ) (ρ : Dev nD → PrngReg)

/-- The loss of core `c`'s argument arrays. -/
def lossOf (c : Dev nD) : Vec Ideal S_ .f32 :=
  fun _ => Cert.Spec.loss (aA m c) (bA m c) (xA m c) ((m ((c.tc : Thread nD τ).loc main_arg3) : Vec Ideal S_ .f32) ix0)

/-- What the host tail makes of the two results the last point wrote back is the loss. -/
theorem result_eq (c : Dev nD) :
    tailTerm ((dats m 0 c).arrAt 4 cfg0.N) ((dats m 0 c).arrAt 5 cfg0.N) (m ((c.tc : Thread nD τ).loc main_arg3)) = lossOf m c := by
  rw [final4, final5,
    tailTerm_eq _ _ _ (Cert.Spec.term1 (aA m c) (xA m c) 8) (fun p q => Cert.Spec.gramN (aA m c) (bA m c) 8 p q)
      (fun j => last_o4 m c _ j) (fun p q => last_o5 m c _ p q)]
  unfold lossOf
  rw [← Cert.Spec.lossT_eq_loss]
  rfl

/-- The idealized kernel's run, with its result named. -/
theorem run_value : θ_run defs (onTc (τ := τ) (main (F := Ideal))) ⟨m, fun _ => 0, ρ⟩ (fun r => ∀ c : Dev nD,
      r.2.mem ((c.tc : Thread nD τ).loc main_v5) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m c), (h c).2⟩) (run_main (F := Ideal) m ρ)

end Cert.KernelIdeal.Hand

end
-- ==== Proof.RefValue.lean ====
/- The reference program's value is the loss: its two contractions read at an index are the product row and the Gram
   entry, its two total sums start from the float zero, and its scalar result has one index. -/
import proofs.«110513_j575525618299_1_alg».proof.Proof.Gen.ReferenceIdeal.Read
import proofs.«110513_j575525618299_1_alg».proof.Proof.Spec
import Idealize.ShloMosaic.Lib.ValueIdx
import Idealize.ShloMosaic.PureOps.Ideal.Laws

noncomputable section

namespace Cert.RefValue

open Idealize.ShloMosaic Idealize.ShloMosaic.ValueIdx Cert.ReferenceIdeal

/-- The first contraction at an index is the product row's entry (Θ F_ll)[R, l]. -/
theorem v0_eq (x0 : (⟨S8192x64, .f32⟩ : BufTy).Contents (Elt Ideal)) (x2 : (⟨S8192x8192, .f32⟩ : BufTy).Contents (Elt Ideal))
    (j : S8192x64.Idx) : Read.val_main_v0 (F := Ideal) x0 x2 j = Cert.Spec.prod x0 x2 (j 0) (j 1) := by
  rw [Read.val_main_v0_apply]
  unfold Cert.Spec.prod
  refine Finset.sum_congr rfl fun k _ => ?_
  have e1 : Read.lidx_main_v0 j k = ix2 (j 0) k := funext fun a => match a with
    | ⟨0, _⟩ => rfl
    | ⟨1, _⟩ => rfl
  have e2 : Read.ridx_main_v0 j k = ix2 k (j 1) := funext fun a => match a with
    | ⟨0, _⟩ => rfl
    | ⟨1, _⟩ => rfl
  rw [e1, e2]
  rfl

/-- The second contraction at an index is the Gram entry G[p, q]. -/
theorem v3_eq (x0 x1 : (⟨S8192x64, .f32⟩ : BufTy).Contents (Elt Ideal)) (j : S64x64.Idx) :
    Read.val_main_v3 (F := Ideal) x0 x1 j = Cert.Spec.gram x0 x1 (j 0) (j 1) := by
  rw [Read.val_main_v3_apply]
  unfold Cert.Spec.gram
  refine Finset.sum_congr rfl fun k _ => ?_
  have e1 : Read.lidx_main_v3 j k = ix2 k (j 0) := funext fun a => match a with
    | ⟨0, _⟩ => rfl
    | ⟨1, _⟩ => rfl
  have e2 : Read.ridx_main_v3 j k = ix2 k (j 1) := funext fun a => match a with
    | ⟨0, _⟩ => rfl
    | ⟨1, _⟩ => rfl
  rw [e1, e2]
  rfl

/-- The reference's result, at its one index, is the loss. -/
theorem ref_eq (x0 x1 : (⟨Cert.ReferenceIdeal.S8192x64, .f32⟩ : BufTy).Contents (Elt Ideal))
    (x2 : (⟨Cert.ReferenceIdeal.S8192x8192, .f32⟩ : BufTy).Contents (Elt Ideal))
    (x3 : (⟨Cert.ReferenceIdeal.S_, .f32⟩ : BufTy).Contents (Elt Ideal)) :
    Cert.ReferenceIdeal.Read.val_main_v7 (F := Ideal) x0 x1 x2 x3 = fun _ => Cert.Spec.loss x0 x1 x2 (x3 ValueIdx.ix0) := by
  funext i
  obtain rfl : i = ix0 := eq_ix0 i
  rw [Read.val_main_v7_apply, Read.val_main_v2_apply, Read.val_main_v6_apply, Read.val_main_v5_apply, Read.val_main_cst_apply, Read.val_main_cst_0_apply]
  show (Ideal.ofBits .f32 0x00000000#32 + ∑ j : S8192x64.Idx, Read.val_main_v1 (F := Ideal) x0 x2 j)
      + x3 ix0 * (Ideal.ofBits .f32 0x00000000#32 + ∑ j : S64x64.Idx, Read.val_main_v4 (F := Ideal) x0 x1 j) = _
  rw [Ideal.ofBits_zero_f32, zero_add, zero_add]
  unfold Cert.Spec.loss
  congr 1
  · refine Finset.sum_congr rfl fun j _ => ?_
    rw [Read.val_main_v1_apply, v0_eq]
    rfl
  · congr 1
    refine Finset.sum_congr rfl fun j _ => ?_
    rw [Read.val_main_v4_apply, v3_eq]
    rfl

end Cert.RefValue

end
-- ==== Proof.lean ====
/- The loss kernel against its reference, over the extended reals. Both programs compute
     Σ_{R,l} (Θ F_ll)[R,l] · F_ll[R,l] + λ · Σ_{p,q} (F_ulᵀ F_ll)[p,q]²;
   the kernel accumulates it over an 8 × 4 grid of tiles (rows in tiles of 1024, the contraction in tiles of 2048) in three
   scratch buffers, the reference in whole-array operations. The two agree by regrouping finite sums, which needs only
   that addition on the extended reals is commutative and associative; no input need be finite for that. Each frame is
   the program's run with the result dropped. -/
import proofs.«110513_j575525618299_1_alg».proof.Defs
import proofs.«110513_j575525618299_1_alg».proof.Proof.Gen.Kernel
import proofs.«110513_j575525618299_1_alg».proof.Proof.Gen.KernelIdeal
import proofs.«110513_j575525618299_1_alg».proof.Proof.Gen.ReferenceIdeal
import proofs.«110513_j575525618299_1_alg».proof.Proof.Gen.Pre_finite_inputs
import proofs.«110513_j575525618299_1_alg».proof.Proof.Gen.ReferenceIdeal.Run
import proofs.«110513_j575525618299_1_alg».proof.Proof.Gen.ReferenceIdeal.Read
import proofs.«110513_j575525618299_1_alg».proof.Proof.K.Launch
import proofs.«110513_j575525618299_1_alg».proof.Proof.Val.KernelValue
import proofs.«110513_j575525618299_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => (θ_run (Cert.Kernel.defs (F := Bits)) _ _).mono (fun _ h c => (h c).2) (Cert.Kernel.Hand.run_main (F := Bits) m ρ),
  fun m ρ _ => (θ_run (Cert.KernelIdeal.defs (F := Ideal)) _ _).mono (fun _ h c => (h c).2) (Cert.KernelIdeal.Hand.run_main (F := Ideal) m ρ),
  fun m ρ _ => (θ_run (Cert.ReferenceIdeal.defs (F := Ideal)) _ _).mono (fun _ h c => (h c).2) (Cert.ReferenceIdeal.Value.run (F := Ideal) m ρ),
  trivial,
  fun m ρ m' ρ' _ hagree => ⟨fun c => Cert.KernelIdeal.Hand.lossOf m c, Cert.KernelIdeal.Hand.run_value m ρ,
    (θ_run (Cert.ReferenceIdeal.defs (F := Ideal)) _ _).mono (fun _ h c => ⟨by
        rw [(h c).1, Cert.ReferenceIdeal.Read.val_main_v7_eq, Cert.RefValue.ref_eq, (hagree c).1, (hagree c).2.1, (hagree c).2.2.1, (hagree c).2.2.2]
        rfl, (h c).2⟩)
      (Cert.ReferenceIdeal.Value.run (F := Ideal) m' ρ')⟩⟩

end Cert.Proof

end
